-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S4x1000x32 : Shape := ⟨3, ![4, 1000, 32]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S4x1000x32 : S_.BroadcastsInDim S4x1000x32 (![] : Fin 0 → Fin S4x1000x32.rank)
  reducesTo_S4x1000x32_S_d0_1_2 : S4x1000x32.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S100000x4 : S_.BroadcastsInDim S100000x4 (![] : Fin 0 → Fin S100000x4.rank)
  reducesTo_S100000x4_S_d0_1 : S100000x4.ReducesTo [0, 1] S_

variable [Facts]

def fn_part2 {F : FTy → Type} [FloatOps F] (main_arg0 : IVec S100000x4 32) (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 0#32
  let main_v44 : IVec S100000x4 32 := broadcastInDim S100000x4 ![] bcast_S_S100000x4 main_c_16
  let main_v45 : IVec S100000x4 1 := cmpi .sge main_arg0 main_v44
  let main_c_17 : IVec S_ 32 := constantI S_ 32 1000#32
  let main_v46 : IVec S100000x4 32 := broadcastInDim S100000x4 ![] bcast_S_S100000x4 main_c_17
  let main_v47 : IVec S100000x4 1 := cmpi .slt main_arg0 main_v46
  let main_v48 : IVec S100000x4 1 := andi main_v45 main_v47
  let main_c_18 : IVec S_ 1 := constantI S_ 1 1#1
  let main_v49 : IVec S_ 1 := (fun x v => Host.reduce IntOp.andi x v reducesTo_S100000x4_S_d0_1 h_S_) main_v48 main_c_18
  let main_v50 : IVec S_ 1 := andi main_v43 main_v49
  main_v50

def fn_part1 {F : FTy → Type} [FloatOps F] (main_arg0 : IVec S100000x4 32) (main_arg6 : FVec F S128 .f32) (main_arg7 : FVec F S128x64 .f32) (main_arg8 : FVec F S64 .f32) (main_arg9 : FVec F S64x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg9 main_arg10 main_v33

def fn {F : FTy → Type} [FloatOps F] (main_arg0 : IVec S100000x4 32) (main_arg1 : IVec S2x1600000 32) (main_arg2 : FVec F S4x1000x32 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x64 .f32) (main_arg10 : FVec F S64 .f32) : IVec S_ 1 :=
  let main_v0 : FVec F S4x1000x32 .f32 := Host.absf main_arg2
  let main_cst : FVec F S_ .f32 := constant S_ .f32 0x7F800000#32
  let main_v1 : FVec F S4x1000x32 .f32 := broadcastInDim S4x1000x32 ![] bcast_S_S4x1000x32 main_cst
  let main_v2 : IVec S4x1000x32 1 := cmpf .olt main_v0 main_v1
  let main_c : IVec S_ 1 := constantI S_ 1 1#1
  let main_v3 : IVec S_ 1 := (fun x v => Host.reduce IntOp.andi x v reducesTo_S4x1000x32_S_d0_1_2 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg6 main_arg7 main_arg8 main_arg9 main_arg10 main_v13 main_v16
-- ==== Kernel.lean ====
abbrev S100000x4 : Shape := ⟨2, ![100000, 4]⟩
abbrev S2x1600000 : Shape := ⟨2, ![2, 1600000]⟩
abbrev S4x1000x32 : Shape := ⟨3, ![4, 1000, 32]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩
abbrev S4x1024x32 : Shape := ⟨3, ![4, 1024, 32]⟩
abbrev S100000x128 : Shape := ⟨2, ![100000, 128]⟩
abbrev S2000x4 : Shape := ⟨2, ![2000, 4]⟩
abbrev S2000x128 : Shape := ⟨2, ![2000, 128]⟩
abbrev S2000x1024 : Shape := ⟨2, ![2000, 1024]⟩
abbrev S2000x1 : Shape := ⟨2, ![2000, 1]⟩
abbrev S1x1024x32 : Shape := ⟨3, ![1, 1024, 32]⟩
abbrev S1024x32 : Shape := ⟨2, ![1024, 32]⟩
abbrev S2000x32 : Shape := ⟨2, ![2000, 32]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128 : Shape := ⟨2, ![1, 128]⟩
abbrev S4000x128 : Shape := ⟨2, ![4000, 128]⟩
abbrev S1x64 : Shape := ⟨2, ![1, 64]⟩
abbrev S100000x64 : Shape := ⟨2, ![100000, 64]⟩
abbrev S4000x64 : Shape := ⟨2, ![4000, 64]⟩

abbrev nBuf : Space → Nat
  | .hbm => 51
  | .vmem => 25
  | .smem => 0
  | _ => 0

abbrev bufTy : (tb : Table) → Fin (tcTables nBuf tb) → BufTy
  | .hbm, ⟨0, _⟩ => ⟨S100000x4, .i32⟩
  | .hbm, ⟨1, _⟩ => ⟨S2x1600000, .i32⟩
  | .hbm, ⟨2, _⟩ => ⟨S4x1000x32, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S_, .f32⟩
  | .hbm, ⟨13, _⟩ => ⟨S4x1024x32, .f32⟩
  | .hbm, ⟨14, _⟩ => ⟨S100000x128, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1x128, .f32⟩
  | .hbm, ⟨33, _⟩ => ⟨S1x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x64, .f32⟩
  | .hbm, ⟨49, _⟩ => ⟨S1x64, .f32⟩
  | .hbm, ⟨50, _⟩ => ⟨S100000x64, .f32⟩
  | .local _ .vmem, ⟨0, _⟩ => ⟨S2000x4, .i32⟩
  | .local _ .vmem, ⟨1, _⟩ => ⟨S2000x4, .i32⟩
  | .local _ .vmem, ⟨2, _⟩ => ⟨S4x1024x32, .f32⟩
  | .local _ .vmem, ⟨3, _⟩ => ⟨S2000x128, .f32⟩
  | .local _ .vmem, ⟨4, _⟩ => ⟨S2000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S128x64, .f32⟩
  | .local _ .vmem, ⟨20, _⟩ => ⟨S1x64, .f32⟩
  | .local _ .vmem, ⟨21, _⟩ => ⟨S64x64, .f32⟩
  | .local _ .vmem, ⟨22, _⟩ => ⟨S1x64, .f32⟩
  | .local _ .vmem, ⟨23, _⟩ => ⟨S4000x64, .f32⟩
  | .local _ .vmem, ⟨24, _⟩ => ⟨S4000x64, .f32⟩
  | _, _ => ⟨S100000x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  pads_S4x1000x32_S4x1024x32_000_0240_000 : S4x1000x32.Pads (![0, 0, 0] : Fin 3 → Nat) ![0, 24, 0] ![0, 0, 0] S4x1024x32
  h_S_ : 0 < S_.numel
  iota_S2000x1024_d1_w32 : S2000x1024.Iotas .tc 32 [1]
  inb_S2000x4_S2000x1_0_0 : ∀ a, (![0, 0] : Fin 2 → Nat) a + S2000x1.size a ≤ S2000x4.size a
  h_S2000x1 : 0 < S2000x1.numel
  broadcasts_S2000x1_S2000x1024 : S2000x1.Broadcasts S2000x1024
  natLt_1_32 : 1 < 32
  bitsLt_bf16_f32 : FTy.bits .bf16 < FTy.bits .f32
  inb_S4x1024x32_S1x1024x32_0_0_0 : ∀ a, (![0, 0, 0] : Fin 3 → Nat) a + S1x1024x32.size a ≤ S4x1024x32.size a
  h_S1x1024x32 : 0 < S1x1024x32.numel
  shapeCasts_S1x1024x32_S1024x32 : S1x1024x32.ShapeCasts S1024x32
  inb_S2000x4_S2000x1_0_1 : ∀ a, (![0, 1] : Fin 2 → Nat) a + S2000x1.size a ≤ S2000x4.size a
  inb_S4x1024x32_S1x1024x32_1_0_0 : ∀ a, (![1, 0, 0] : Fin 3 → Nat) a + S1x1024x32.size a ≤ S4x1024x32.size a
  inb_S2000x4_S2000x1_0_2 : ∀ a, (![0, 2] : Fin 2 → Nat) a + S2000x1.size a ≤ S2000x4.size a
  inb_S4x1024x32_S1x1024x32_2_0_0 : ∀ a, (![2, 0, 0] : Fin 3 → Nat) a + S1x1024x32.size a ≤ S4x1024x32.size a
  inb_S2000x4_S2000x1_0_3 : ∀ a, (![0, 3] : Fin 2 → Nat) a + S2000x1.size a ≤ S2000x4.size a
  inb_S4x1024x32_S1x1024x32_3_0_0 : ∀ a, (![3, 0, 0] : Fin 3 → Nat) a + S1x1024x32.size a ≤ S4x1024x32.size a
  concatenates_S2000x32_S2000x32_S2000x32_S2000x32_S2000x128_d1 : Shape.Concatenates [S2000x32, S2000x32, S2000x32, S2000x32] S2000x128 1
  inb_S2000x128_S2000x128_0_0 : ∀ a, (![0, 0] : Fin 2 → Nat) a + S2000x128.size a ≤ S2000x128.size a
  h_S2000x128 : 0 < S2000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  inb_S4000x64_S4000x64_0_0 : ∀ a, (![0, 0] : Fin 2 → Nat) a + S4000x64.size a ≤ S4000x64.size a
  h_S4000x64 : 0 < S4000x64.numel
  dot_S2000x1024_S1024x32_S2000x32_1_0_0_1_n_n_wf : DotDims.WF S2000x1024 S1024x32 S2000x32 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S100000x4.size a
  hwx0_0 : ∀ i : grid0.Coords, EltTy.bits .i32 = 32 ∨ (Rect.block (s := S100000x4) S2000x4.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1024x32.size a ≤ S4x1024x32.size a
  hwx0_1 : ∀ i : grid0.Coords, EltTy.bits .f32 = 32 ∨ (Rect.block (s := S4x1024x32) S4x1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S100000x64.size a
  hwx2_6 : ∀ i : grid2.Coords, EltTy.bits .f32 = 32 ∨ (Rect.block (s := S100000x64) S4000x64.size (cc2_transform_6 i) (hinb2_6 i)).WholeWords (EltTy.packing .f32)

variable [Facts₀]

def dot_S2000x1024_S1024x32_S2000x32_1_0_0_1_n_n : DotDims S2000x1024 S1024x32 S2000x32 where
  lhsContracting := [1]
  rhsContracting := [0]
  lhsNonContracting := [0]
  rhsNonContracting := [1]
  lhsBatch := []
  rhsBatch := []
  wf := dot_S2000x1024_S1024x32_S2000x32_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x1024x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v18) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S4000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S4x1000x32 : Shape := ⟨3, ![4, 1000, 32]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x1000x32 : Shape := ⟨3, ![1, 1000, 32]⟩
abbrev S1000x32 : Shape := ⟨2, ![1000, 32]⟩
abbrev S100000x1 : Shape := ⟨2, ![100000, 1]⟩
abbrev S100000 : Shape := ⟨1, ![100000]⟩
abbrev S_ : Shape := ⟨0, ![]⟩
abbrev S100000x32 : Shape := ⟨2, ![100000, 32]⟩
abbrev S100000x128 : Shape := ⟨2, ![100000, 128]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S100000x4, .i32⟩
  | .hbm, ⟨1, _⟩ => ⟨S2x1600000, .i32⟩
  | .hbm, ⟨2, _⟩ => ⟨S4x1000x32, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1000x32, .f32⟩
  | .hbm, ⟨12, _⟩ => ⟨S1000x32, .f32⟩
  | .hbm, ⟨13, _⟩ => ⟨S100000x1, .i32⟩
  | .hbm, ⟨14, _⟩ => ⟨S100000, .i32⟩
  | .hbm, ⟨15, _⟩ => ⟨S_, .i32⟩
  | .hbm, ⟨16, _⟩ => ⟨S100000, .i32⟩
  | .hbm, ⟨17, _⟩ => ⟨S100000, .i1⟩
  | .hbm, ⟨18, _⟩ => ⟨S_, .i32⟩
  | .hbm, ⟨19, _⟩ => ⟨S100000, .i32⟩
  | .hbm, ⟨20, _⟩ => ⟨S100000, .i32⟩
  | .hbm, ⟨21, _⟩ => ⟨S100000, .i32⟩
  | .hbm, ⟨22, _⟩ => ⟨S100000x1, .i32⟩
  | .hbm, ⟨23, _⟩ => ⟨S100000x32, .f32⟩
  | .hbm, ⟨24, _⟩ => ⟨S1x1000x32, .f32⟩
  | .hbm, ⟨25, _⟩ => ⟨S1000x32, .f32⟩
  | .hbm, ⟨26, _⟩ => ⟨S100000x1, .i32⟩
  | .hbm, ⟨27, _⟩ => ⟨S100000, .i32⟩
  | .hbm, ⟨28, _⟩ => ⟨S_, .i32⟩
  | .hbm, ⟨29, _⟩ => ⟨S100000, .i32⟩
  | .hbm, ⟨30, _⟩ => ⟨S100000, .i1⟩
  | .hbm, ⟨31, _⟩ => ⟨S_, .i32⟩
  | .hbm, ⟨32, _⟩ => ⟨S100000, .i32⟩
  | .hbm, ⟨33, _⟩ => ⟨S100000, .i32⟩
  | .hbm, ⟨34, _⟩ => ⟨S100000, .i32⟩
  | .hbm, ⟨35, _⟩ => ⟨S100000x1, .i32⟩
  | .hbm, ⟨36, _⟩ => ⟨S100000x32, .f32⟩
  | .hbm, ⟨37, _⟩ => ⟨S1x1000x32, .f32⟩
  | .hbm, ⟨38, _⟩ => ⟨S1000x32, .f32⟩
  | .hbm, ⟨39, _⟩ => ⟨S100000x1, .i32⟩
  | .hbm, ⟨40, _⟩ => ⟨S100000, .i32⟩
  | .hbm, ⟨41, _⟩ => ⟨S_, .i32⟩
  | .hbm, ⟨42, _⟩ => ⟨S100000, .i32⟩
  | .hbm, ⟨43, _⟩ => ⟨S100000, .i1⟩
  | .hbm, ⟨44, _⟩ => ⟨S_, .i32⟩
  | .hbm, ⟨45, _⟩ => ⟨S100000, .i32⟩
  | .hbm, ⟨46, _⟩ => ⟨S100000, .i32⟩
  | .hbm, ⟨47, _⟩ => ⟨S100000, .i32⟩
  | .hbm, ⟨48, _⟩ => ⟨S100000x1, .i32⟩
  | .hbm, ⟨49, _⟩ => ⟨S100000x32, .f32⟩
  | .hbm, ⟨50, _⟩ => ⟨S1x1000x32, .f32⟩
  | .hbm, ⟨51, _⟩ => ⟨S1000x32, .f32⟩
  | .hbm, ⟨52, _⟩ => ⟨S100000x1, .i32⟩
  | .hbm, ⟨53, _⟩ => ⟨S100000, .i32⟩
  | .hbm, ⟨54, _⟩ => ⟨S_, .i32⟩
  | .hbm, ⟨55, _⟩ => ⟨S100000, .i32⟩
  | .hbm, ⟨56, _⟩ => ⟨S100000, .i1⟩
  | .hbm, ⟨57, _⟩ => ⟨S_, .i32⟩
  | .hbm, ⟨58, _⟩ => ⟨S100000, .i32⟩
  | .hbm, ⟨59, _⟩ => ⟨S100000, .i32⟩
  | .hbm, ⟨60, _⟩ => ⟨S100000, .i32⟩
  | .hbm, ⟨61, _⟩ => ⟨S100000x1, .i32⟩
  | .hbm, ⟨62, _⟩ => ⟨S100000x32, .f32⟩
  | .hbm, ⟨63, _⟩ => ⟨S100000x128, .f32⟩
  | .hbm, ⟨64, _⟩ => ⟨S1x1600000, .i32⟩
  | .hbm, ⟨65, _⟩ => ⟨S1600000, .i32⟩
  | .hbm, ⟨66, _⟩ => ⟨S1x1600000, .i32⟩
  | .hbm, ⟨67, _⟩ => ⟨S1600000, .i32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000x128, .f32⟩
  | .hbm, ⟨105, _⟩ => ⟨S_, .f32⟩
  | .hbm, ⟨106, _⟩ => ⟨S100000x128, .f32⟩
  | .hbm, ⟨107, _⟩ => ⟨S1600000x1, .i32⟩
  | .hbm, ⟨108, _⟩ => ⟨S100000x128, .f32⟩
  | .hbm, ⟨109, _⟩ => ⟨S100000x128, .f32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | .hbm, ⟨114, _⟩ => ⟨S_, .f32⟩
  | .hbm, ⟨115, _⟩ => ⟨S100000x64, .f32⟩
  | .hbm, ⟨116, _⟩ => ⟨S100000x64, .f32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S100000x64, .f32⟩
  | _, _ => ⟨S100000x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_7 : Ref sig .tc := ⟨.hbm, 68, rfl⟩
abbrev main_v49 : Ref sig .tc := ⟨.hbm, 69, rfl⟩
abbrev main_v50 : Ref sig .tc := ⟨.hbm, 70, rfl⟩
abbrev main_c_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call0_cst : Ref sig .tc := ⟨.hbm, 86, rfl⟩
abbrev main_call0_v0 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_c_9 : Ref sig .tc := ⟨.hbm, 96, rfl⟩
abbrev main_v70 : Ref sig .tc := ⟨.hbm, 97, rfl⟩
abbrev main_v71 : Ref sig .tc := ⟨.hbm, 98, rfl⟩
abbrev main_c_10 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_call2_cst : Ref sig .tc := ⟨.hbm, 114, rfl⟩
abbrev main_call2_v0 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]

class Facts₀ : Prop where
  slices_S4x1000x32_S1x1000x32_0_0_0 : S4x1000x32.Slices ![0, 0, 0] S1x1000x32
  shapeCasts_S1x1000x32_S1000x32 : S1x1000x32.ShapeCasts S1000x32
  slices_S100000x4_S100000x1_0_0 : S100000x4.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S4x1000x32_S1x1000x32_1_0_0 : S4x1000x32.Slices ![1, 0, 0] S1x1000x32
  slices_S100000x4_S100000x1_0_1 : S100000x4.Slices ![0, 1] S100000x1
  slices_S4x1000x32_S1x1000x32_2_0_0 : S4x1000x32.Slices ![2, 0, 0] S1x1000x32
  slices_S100000x4_S100000x1_0_2 : S100000x4.Slices ![0, 2] S100000x1
  slices_S4x1000x32_S1x1000x32_3_0_0 : S4x1000x32.Slices ![3, 0, 0] S1x1000x32
  slices_S100000x4_S100000x1_0_3 : S100000x4.Slices ![0, 3] S100000x1
  concatenates_S100000x32_S100000x32_S100000x32_S100000x32_S100000x128_d1 : Shape.Concatenates [S100000x32, S100000x32, S100000x32, S100000x32] S100000x128 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S1000x32_S100000x1_S100000x32_1_0_n_n_0_1_132_wf : GatherDims.WF S1000x32 S100000x1 S100000x32 [1] [0] [] [0] [] 1 ![1, 32]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S1000x32_S100000x1_S100000x32_1_0_n_n_0_1_132 : GatherDims S1000x32 S100000x1 S100000x32 where
  offsetDims := [1]
  collapsedSliceDims := [0]
  operandBatchingDims := []
  startIndicesBatchingDims := []
  startIndexMap := [0]
  indexVectorDim := 1
  sliceSizes := ![1, 32]
  wf := gather_S1000x32_S100000x1_S100000x32_1_0_n_n_0_1_132_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The mathematics both programs compute, as whole-array functions over the extended reals.

  A node n carries four categorical ids; field f's id selects one row of width 32 from table f, and the four rows
  side by side are the node's 128 features (`embed`).  One graph convolution adds to each node's features the sum of
  its in-neighbours' features (that aggregation is the same host computation in both programs and is carried as an
  unopened function of the edge list), then applies a two-layer perceptron: a linear map with bias, a clamp at zero,
  a second linear map with bias (`dense`, `clamp0`).  The first convolution clamps its result at zero again
  (`mlp1`), the second does not (`mlp2`).
-/
import Idealize.ShloMosaic.PureOps.Ideal
import Idealize.ShloMosaic.Lib.ValueIdx

noncomputable section

namespace Cert.Gin

open Idealize.ShloMosaic Idealize.ShloMosaic.ValueIdx

/-- A linear layer with bias read at an index: entry (n, j) is the sum over k of h(n, k) · w(k, j), plus b(j). -/
def dense {N K J : Nat} (h : FVec Ideal ⟨2, ![N, K]⟩ .f32) (w : FVec Ideal ⟨2, ![K, J]⟩ .f32) (b : FVec Ideal ⟨1, ![J]⟩ .f32) :
    FVec Ideal ⟨2, ![N, J]⟩ .f32 :=
  fun i => (∑ k : Fin K, h (ix2 (i 0) k) * w (ix2 k (i 1))) + b (ix1 (i 1))

/-- The clamp at zero, entry by entry. -/
def clamp0 {s : Shape} (x : FVec Ideal s .f32) : FVec Ideal s .f32 := fun i => max (x i) 0

/-- The sum of two arrays, entry by entry. -/
def plus {s : Shape} (x y : FVec Ideal s .f32) : FVec Ideal s .f32 := fun i => x i + y i

/-- A bias kept as a one-row matrix, read as a vector. -/
def row {J : Nat} (b : FVec Ideal ⟨2, ![1, J]⟩ .f32) : FVec Ideal ⟨1, ![J]⟩ .f32 := fun j => b (ix2 0 (j 0))

/-- The first convolution's perceptron on x + agg, clamped at zero after each layer. -/
def mlp1 {N K M J : Nat} (x agg : FVec Ideal ⟨2, ![N, K]⟩ .f32) (wa : FVec Ideal ⟨2, ![K, M]⟩ .f32) (ba : FVec Ideal ⟨1, ![M]⟩ .f32)
    (wb : FVec Ideal ⟨2, ![M, J]⟩ .f32) (bb : FVec Ideal ⟨1, ![J]⟩ .f32) : FVec Ideal ⟨2, ![N, J]⟩ .f32 :=
  clamp0 (dense (clamp0 (dense (plus x agg) wa ba)) wb bb)

/-- The second convolution's perceptron on x + agg: no clamp after the last layer. -/
def mlp2 {N K M J : Nat} (x agg : FVec Ideal ⟨2, ![N, K]⟩ .f32) (wa : FVec Ideal ⟨2, ![K, M]⟩ .f32) (ba : FVec Ideal ⟨1, ![M]⟩ .f32)
    (wb : FVec Ideal ⟨2, ![M, J]⟩ .f32) (bb : FVec Ideal ⟨1, ![J]⟩ .f32) : FVec Ideal ⟨2, ![N, J]⟩ .f32 :=
  dense (clamp0 (dense (plus x agg) wa ba)) wb bb

/-- The embedding over a table of R rows per field: feature 32·f + e of node n is entry e of the row that node n's
    id for field f names, and zero when the id names no row. -/
def embed {N R : Nat} (xc : IVec ⟨2, ![N, 4]⟩ 32) (tab : FVec Ideal ⟨3, ![4, R, 32]⟩ .f32) : FVec Ideal ⟨2, ![N, 128]⟩ .f32 :=
  fun i =>
    let f : Fin 4 := ⟨(i 1).val / 32, Nat.div_lt_of_lt_mul (i 1).isLt⟩
    let e : Fin 32 := ⟨(i 1).val % 32, Nat.mod_lt _ (by decide)⟩
    if h : (xc (ix2 (i 0) f)).toNat < R then tab (ix3 f ⟨(xc (ix2 (i 0) f)).toNat, h⟩ e) else 0

end Cert.Gin

end
-- ==== Proof.Region0.lean ====
import proofs.«424596_j32280974197455_1_alg».proof.Proof.Gen.KernelIdeal.Frame
import proofs.«424596_j32280974197455_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The compare bit of two 32-bit words, zero-extended and read as a signed integer, is 1 when they are equal, else 0. -/
private theorem bit_val (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · subst h
    have e : ((IntOp.cmpi .eq x x).setWidth 32).toInt = 1 := by simp [IntOp.cmpi]
    rw [e, if_pos rfl]; simp
  · have hb : (x == y) = false := beq_eq_false_iff_ne.mpr h
    have e : ((IntOp.cmpi .eq x y).setWidth 32).toInt = 0 := by simp [IntOp.cmpi, hb]
    rw [e, if_neg h]; simp

/-- One entry of the one-hot matrix of an id column: entry (p, k) is 1 when row p's id is the word k, else 0. -/
private theorem onehot_apply (v : IVec S2000x1 32) (hi : S2000x1024.Iotas .tc 32 [1]) (hb : S2000x1.Broadcasts S2000x1024)
    (h1 : 1 < 32) (h2 : FTy.bits .bf16 < FTy.bits .f32) (p : Fin 2000) (k : Fin 1024) :
    (truncf (F := Ideal) .bf16 (sitofp .f32 (extui 32 (cmpi .eq (broadcastTo S2000x1024 v hb) (iota .tc S2000x1024 32 [1] hi)) h1)) h2) (ix2 p k)
      = if v (ix2 p 0) = BitVec.ofNat 32 k.val then 1 else 0 := by
  show FloatOps.sitofp (F := Ideal) .f32 ((IntOp.cmpi .eq (broadcastTo S2000x1024 v hb (ix2 p k)) (iota .tc S2000x1024 32 [1] hi (ix2 p k))).setWidth 32) = _
  rw [broadcastTo_apply v hb (ix2 p k) (ix2 p 0) (by
        intro a
        match a with
        | ⟨0, _⟩ => rfl
        | ⟨1, _⟩ => rfl),
    iota_single_apply, bit_val]

/-! The product's index maps, axis by axis: the left operand is read at (row, k), the right one at (k, column). -/

private theorem lhs_ax0 (i : S2000x32.Idx) (q : dot_S2000x1024_S1024x32_S2000x32_1_0_0_1_n_n.contr.Idx) :
    (dot_S2000x1024_S1024x32_S2000x32_1_0_0_1_n_n.lhsIdx i q 0).val = (i 0).val := by
  unfold DotDims.lhsIdx
  rw [dif_neg (show ¬(0 : Fin S2000x1024.rank) ∈ dot_S2000x1024_S1024x32_S2000x32_1_0_0_1_n_n.lhsBatch by decide), dif_pos (show (0 : Fin S2000x1024.rank) ∈ dot_S2000x1024_S1024x32_S2000x32_1_0_0_1_n_n.lhsNonContracting by decide)]
  rfl
private theorem lhs_ax1 (i : S2000x32.Idx) (q : dot_S2000x1024_S1024x32_S2000x32_1_0_0_1_n_n.contr.Idx) :
    (dot_S2000x1024_S1024x32_S2000x32_1_0_0_1_n_n.lhsIdx i q 1).val = (q ⟨0, by decide⟩).val :=
  dot_S2000x1024_S1024x32_S2000x32_1_0_0_1_n_n.lhsIdx_val_of_single rfl i q
private theorem rhs_ax0 (i : S2000x32.Idx) (q : dot_S2000x1024_S1024x32_S2000x32_1_0_0_1_n_n.contr.Idx) :
    (dot_S2000x1024_S1024x32_S2000x32_1_0_0_1_n_n.rhsIdx i q 0).val = (q ⟨0, by decide⟩).val :=
  dot_S2000x1024_S1024x32_S2000x32_1_0_0_1_n_n.rhsIdx_val_of_single rfl i q
private theorem rhs_ax1 (i : S2000x32.Idx) (q : dot_S2000x1024_S1024x32_S2000x32_1_0_0_1_n_n.contr.Idx) :
    (dot_S2000x1024_S1024x32_S2000x32_1_0_0_1_n_n.rhsIdx i q 1).val = (i 1).val := by
  unfold DotDims.rhsIdx
  rw [dif_neg (show ¬(1 : Fin S1024x32.rank) ∈ dot_S2000x1024_S1024x32_S2000x32_1_0_0_1_n_n.rhsBatch by decide), dif_pos (show (1 : Fin S1024x32.rank) ∈ dot_S2000x1024_S1024x32_S2000x32_1_0_0_1_n_n.rhsNonContracting by decide)]
  rfl

/-- A product into the zero accumulator, read at (p, e): the plain sum over the 1024 inner positions. -/
private theorem prod_apply (A : FVec Ideal S2000x1024 .bf16) (B : FVec Ideal S1024x32 .bf16) (p : Fin 2000) (e : Fin 32) :
    matmul dot_S2000x1024_S1024x32_S2000x32_1_0_0_1_n_n none A B (constant (F := Ideal) S2000x32 .f32 0x00000000#32) (ix2 p e)
      = ∑ k : Fin 1024, A (ix2 p k) * B (ix2 k e) := by
  show FloatOps.matmul dot_S2000x1024_S1024x32_S2000x32_1_0_0_1_n_n none A B (constant (F := Ideal) S2000x32 .f32 0x00000000#32) (ix2 p e) = _
  rw [Ideal.matmul_constant_zero_apply, ← Equiv.sum_comp (contrEquiv1 dot_S2000x1024_S1024x32_S2000x32_1_0_0_1_n_n 1024 rfl rfl).symm]
  refine Finset.sum_congr rfl fun k _ => ?_
  have hk := contrEquiv1_symm_val dot_S2000x1024_S1024x32_S2000x32_1_0_0_1_n_n 1024 rfl rfl k
  have el : dot_S2000x1024_S1024x32_S2000x32_1_0_0_1_n_n.lhsIdx (ix2 p e) ((contrEquiv1 dot_S2000x1024_S1024x32_S2000x32_1_0_0_1_n_n 1024 rfl rfl).symm k) = ix2 p k := funext fun a => Fin.ext (by
    match a with
    | ⟨0, _⟩ => exact lhs_ax0 _ _
    | ⟨1, _⟩ => exact (lhs_ax1 _ _).trans hk)
  have er : dot_S2000x1024_S1024x32_S2000x32_1_0_0_1_n_n.rhsIdx (ix2 p e) ((contrEquiv1 dot_S2000x1024_S1024x32_S2000x32_1_0_0_1_n_n 1024 rfl rfl).symm k) = ix2 k e := funext fun a => Fin.ext (by
    match a with
    | ⟨0, _⟩ => exact (rhs_ax0 _ _).trans hk
    | ⟨1, _⟩ => exact rhs_ax1 _ _)
  rw [el, er]

/-- A one-slab table viewed as a 1024 × 32 matrix: entry (k, e) is the slab's entry (0, k, e). -/
private theorem slab_apply (T : Vec Ideal S1x1024x32 .f32) (hs : S1x1024x32.ShapeCasts S1024x32) (h2 : FTy.bits .bf16 < FTy.bits .f32)
    (k : Fin 1024) (e : Fin 32) :
    (truncf (F := Ideal) .bf16 (shapeCast S1024x32 T hs) h2) (ix2 k e) = T (ix3 0 k e) := by
  show shapeCast S1024x32 T hs (ix2 k e) = _
  refine shapeCast_apply T hs (ix2 k e) (ix3 0 k e) ?_
  rw [Shape.rowMajor_val_three, Shape.rowMajor_val_two]
  show ((0 : Nat) * 1024 + k.val) * 32 + e.val = k.val * 32 + e.val
  omega

/-- A sum against a one-hot row picks one entry: the one the id word names if it is below 1024, nothing otherwise. -/
private theorem sum_onehot (x : BitVec 32) (g : Fin 1024 → EReal) :
    (∑ k : Fin 1024, (if x = BitVec.ofNat 32 k.val then (1 : EReal) else 0) * g k)
      = if h : x.toNat < 1024 then g ⟨x.toNat, h⟩ else 0 := by
  by_cases h : x.toNat < 1024
  · rw [dif_pos h]
    rw [Finset.sum_eq_single (⟨x.toNat, h⟩ : Fin 1024)]
    · rw [if_pos (by simp), one_mul]
    · intro k _ hk
      rw [if_neg, zero_mul]
      intro hx
      apply hk
      apply Fin.ext
      have : x.toNat = k.val := by
        rw [hx, BitVec.toNat_ofNat]
        have := k.isLt
        omega
      exact this.symm
    · intro hn; exact absurd (Finset.mem_univ _) hn
  · rw [dif_neg h]
    refine Finset.sum_eq_zero fun k _ => ?_
    rw [if_neg, zero_mul]
    intro hx
    apply h
    rw [hx, BitVec.toNat_ofNat]
    have := k.isLt
    omega

/-- ONE product of a one-hot matrix into a table slab, read at (p, e): the slab's row the id names, or zero. -/
private theorem field_apply (v : IVec S2000x1 32) (T : Vec Ideal S1x1024x32 .f32)
    (hi : S2000x1024.Iotas .tc 32 [1]) (hb : S2000x1.Broadcasts S2000x1024) (h1 : 1 < 32) (h2 : FTy.bits .bf16 < FTy.bits .f32)
    (hs : S1x1024x32.ShapeCasts S1024x32) (p : Fin 2000) (e : Fin 32) :
    matmul dot_S2000x1024_S1024x32_S2000x32_1_0_0_1_n_n none
        (truncf (F := Ideal) .bf16 (sitofp .f32 (extui 32 (cmpi .eq (broadcastTo S2000x1024 v hb) (iota .tc S2000x1024 32 [1] hi)) h1)) h2)
        (truncf (F := Ideal) .bf16 (shapeCast S1024x32 T hs) h2) (constant (F := Ideal) S2000x32 .f32 0x00000000#32) (ix2 p e)
      = if h : (v (ix2 p 0)).toNat < 1024 then T (ix3 0 ⟨(v (ix2 p 0)).toNat, h⟩ e) else 0 := by
  rw [prod_apply]
  refine (Finset.sum_congr rfl fun k _ => ?_).trans (sum_onehot (v (ix2 p 0)) (fun k => T (ix3 0 k e)))
  rw [onehot_apply, slab_apply]

/-- The first three payloads are that product of their loads. -/
private theorem pay2_apply (v : Vec Ideal S2000x1 .i32) (T : Vec Ideal S1x1024x32 .f32) (p : Fin 2000) (e : Fin 32) :
    k0_pay2 (F := Ideal) v T (ix2 p e) = if h : (v (ix2 p 0)).toNat < 1024 then T (ix3 0 ⟨(v (ix2 p 0)).toNat, h⟩ e) else 0 := by
  unfold k0_pay2
  exact field_apply v T _ _ _ _ _ p e
private theorem pay3_apply (v : Vec Ideal S2000x1 .i32) (T : Vec Ideal S1x1024x32 .f32) (p : Fin 2000) (e : Fin 32) :
    k0_pay3 (F := Ideal) v T (ix2 p e) = if h : (v (ix2 p 0)).toNat < 1024 then T (ix3 0 ⟨(v (ix2 p 0)).toNat, h⟩ e) else 0 := by
  unfold k0_pay3
  exact field_apply v T _ _ _ _ _ p e
private theorem pay4_apply (v : Vec Ideal S2000x1 .i32) (T : Vec Ideal S1x1024x32 .f32) (p : Fin 2000) (e : Fin 32) :
    k0_pay4 (F := Ideal) v T (ix2 p e) = if h : (v (ix2 p 0)).toNat < 1024 then T (ix3 0 ⟨(v (ix2 p 0)).toNat, h⟩ e) else 0 := by
  unfold k0_pay4
  exact field_apply v T _ _ _ _ _ p e

/-- Four 2000 × 32 pieces side by side, read at column 32·f + e: piece f at column e. -/
private theorem concat4_apply (a : Fin 4 → FVec Ideal S2000x32 .f32)
    (hc : Shape.Concatenates [S2000x32, S2000x32, S2000x32, S2000x32] S2000x128 1)
    (p : Fin 2000) (j : Fin 128) (f : Fin 4) (e : Fin 32) (hj : j.val = 32 * f.val + e.val) :
    concatenate S2000x128 1 [⟨S2000x32, a 0⟩, ⟨S2000x32, a 1⟩, ⟨S2000x32, a 2⟩, ⟨S2000x32, a 3⟩] hc (ix2 p j) = a f (ix2 p e) := by
  have hoff : ∀ b : Fin S2000x32.rank, b.cast (rfl : S2000x32.rank = S2000x128.rank) ≠ (1 : Fin S2000x128.rank) →
      ((ix2 p e : S2000x32.Idx) b).val = ((ix2 p j : S2000x128.Idx) (b.cast rfl)).val := by
    intro b hb
    match b with
    | ⟨0, _⟩ => rfl
    | ⟨1, _⟩ => exact absurd rfl hb
  match f with
  | ⟨0, _⟩ =>
    refine concatenate_apply_piece (1 : Fin S2000x128.rank) [⟨S2000x32, a 0⟩, ⟨S2000x32, a 1⟩, ⟨S2000x32, a 2⟩, ⟨S2000x32, a 3⟩] hc (ix2 p j)
      0 (by show (0 : Nat) < 4; omega) S2000x32 (a 0) rfl rfl 0 rfl (ix2 p e) hoff ?_
    show 0 + e.val = j.val
    simp at hj; omega
  | ⟨1, _⟩ =>
    refine concatenate_apply_piece (1 : Fin S2000x128.rank) [⟨S2000x32, a 0⟩, ⟨S2000x32, a 1⟩, ⟨S2000x32, a 2⟩, ⟨S2000x32, a 3⟩] hc (ix2 p j)
      1 (by show (1 : Nat) < 4; omega) S2000x32 (a 1) rfl rfl 32 rfl (ix2 p e) hoff ?_
    show 32 + e.val = j.val
    simp at hj; omega
  | ⟨2, _⟩ =>
    refine concatenate_apply_piece (1 : Fin S2000x128.rank) [⟨S2000x32, a 0⟩, ⟨S2000x32, a 1⟩, ⟨S2000x32, a 2⟩, ⟨S2000x32, a 3⟩] hc (ix2 p j)
      2 (by show (2 : Nat) < 4; omega) S2000x32 (a 2) rfl rfl 64 rfl (ix2 p e) hoff ?_
    show 64 + e.val = j.val
    simp at hj; omega
  | ⟨3, _⟩ =>
    refine concatenate_apply_piece (1 : Fin S2000x128.rank) [⟨S2000x32, a 0⟩, ⟨S2000x32, a 1⟩, ⟨S2000x32, a 2⟩, ⟨S2000x32, a 3⟩] hc (ix2 p j)
      3 (by show (3 : Nat) < 4; omega) S2000x32 (a 3) rfl rfl 96 rfl (ix2 p e) hoff ?_
    show 96 + e.val = j.val
    simp at hj; omega

/-- A load of column f of the id block: row p's id for field f. -/
private theorem ld_col (x0 : Vec Ideal S2000x4 .i32) (off : Fin 2 → Nat) (inb : ∀ a, off a + S2000x1.size a ≤ S2000x4.size a)
    (f : Fin 4) (h0 : off 0 = 0) (h1 : off 1 = f.val) (p : Fin 2000) :
    View.ld x0 (Rect.unit (s := S2000x4) off S2000x1.size inb) (ix2 p 0) = x0 (ix2 p f) := by
  show x0 ((Rect.unit (s := S2000x4) off S2000x1.size inb).idx (ix2 p 0)) = _
  refine congrArg x0 (funext fun a => Fin.ext ?_)
  match a with
  | ⟨0, _⟩ => show off 0 + 1 * p.val = p.val; omega
  | ⟨1, _⟩ => show off 1 + 1 * 0 = f.val; omega

/-- A load of slab f of the table: entry (0, k, e) of the slab is entry (f, k, e) of the table. -/
private theorem ld_slab (x1 : Vec Ideal S4x1024x32 .f32) (off : Fin 3 → Nat) (inb : ∀ a, off a + S1x1024x32.size a ≤ S4x1024x32.size a)
    (f : Fin 4) (h0 : off 0 = f.val) (h1 : off 1 = 0) (h2 : off 2 = 0) (k : Fin 1024) (e : Fin 32) :
    View.ld x1 (Rect.unit (s := S4x1024x32) off S1x1024x32.size inb) (ix3 0 k e) = x1 (ix3 f k e) := by
  show x1 ((Rect.unit (s := S4x1024x32) off S1x1024x32.size inb).idx (ix3 0 k e)) = _
  refine congrArg x1 (funext fun a => Fin.ext ?_)
  match a with
  | ⟨0, _⟩ => show off 0 + 1 * 0 = f.val; omega
  | ⟨1, _⟩ => show off 1 + 1 * k.val = k.val; omega
  | ⟨2, _⟩ => show off 2 + 1 * e.val = e.val; omega

/-- The row an id column and a slab select, rewritten over the block's id array and the whole table. -/
private theorem field_of_loads (x0 : Vec Ideal S2000x4 .i32) (x1 : Vec Ideal S4x1024x32 .f32)
    (v : Vec Ideal S2000x1 .i32) (T : Vec Ideal S1x1024x32 .f32) (f : Fin 4) (p : Fin 2000) (e : Fin 32)
    (hv : v (ix2 p 0) = x0 (ix2 p f)) (hT : ∀ k, T (ix3 0 k e) = x1 (ix3 f k e)) :
    (if h : (v (ix2 p 0)).toNat < 1024 then T (ix3 0 ⟨(v (ix2 p 0)).toNat, h⟩ e) else 0)
      = if h : (x0 (ix2 p f)).toNat < 1024 then x1 (ix3 f ⟨(x0 (ix2 p f)).toNat, h⟩ e) else 0 := by
  rw [hv]
  by_cases h : (x0 (ix2 p f)).toNat < 1024
  · rw [dif_pos h, dif_pos h]; exact hT _
  · rw [dif_neg h, dif_neg h]

/-- The stored value, read at column 32·f + e: piece f of the four, the fourth being the product of the last one-hot
    matrix into the last slab. -/
private theorem pay1_apply (a0 a1 a2 : FVec Ideal S2000x32 .f32) (v : Vec Ideal S2000x1 .i32) (T : Vec Ideal S1x1024x32 .f32)
    (p : Fin 2000) (j : Fin 128) (f : Fin 4) (e : Fin 32) (hj : j.val = 32 * f.val + e.val) :
    k0_pay1 (F := Ideal) a0 a1 a2 (k0_pay5 v) T (ix2 p j) = (![a0, a1, a2, k0_pay2 v T] f) (ix2 p e) := by
  unfold k0_pay1
  exact concat4_apply ![a0, a1, a2, k0_pay2 v T] _ p j f e hj

/-- The zero offsets of a whole-block access, as a constant function. -/
private theorem zero_offsets : (![0, 0] : Fin 2 → Nat) = fun _ => 0 := funext fun a => by fin_cases a <;> rfl

/-- What the body leaves in the output block, entry by entry. -/
private theorem block_apply (x0 : Vec Ideal S2000x4 .i32) (x1 : Vec Ideal S4x1024x32 .f32)
    (p : Fin 2000) (j : Fin 128) (f : Fin 4) (e : Fin 32) (hj : j.val = 32 * f.val + e.val) :
    out0_2 (F := Ideal) x0 x1 (ix2 p j) = if h : (x0 (ix2 p f)).toNat < 1024 then x1 (ix3 f ⟨(x0 (ix2 p f)).toNat, h⟩ e) else 0 := by
  unfold out0_2
  rw [View.canon_unit_zero zero_offsets]
  refine (pay1_apply _ _ _ _ _ p j f e hj).trans ?_
  match f with
  | ⟨0, _⟩ =>
    refine (pay2_apply _ _ p e).trans ?_
    exact field_of_loads x0 x1 _ _ 0 p e (ld_col x0 _ _ 0 rfl rfl p) (fun k => ld_slab x1 _ _ 0 rfl rfl rfl k e)
  | ⟨1, _⟩ =>
    refine (pay3_apply _ _ p e).trans ?_
    exact field_of_loads x0 x1 _ _ 1 p e (ld_col x0 _ _ 1 rfl rfl p) (fun k => ld_slab x1 _ _ 1 rfl rfl rfl k e)
  | ⟨2, _⟩ =>
    refine (pay4_apply _ _ p e).trans ?_
    exact field_of_loads x0 x1 _ _ 2 p e (ld_col x0 _ _ 2 rfl rfl p) (fun k => ld_slab x1 _ _ 2 rfl rfl rfl k e)
  | ⟨3, _⟩ =>
    refine (pay2_apply _ _ p e).trans ?_
    exact field_of_loads x0 x1 _ _ 3 p e (ld_col x0 _ _ 3 rfl rfl p) (fun k => ld_slab x1 _ _ 3 rfl rfl rfl k e)

/-- ON ONE BLOCK the body computes the embedding of the block's ids through the whole table. -/
theorem out_block (x0 : Vec Ideal S2000x4 .i32) (x1 : Vec Ideal S4x1024x32 .f32) :
    out0_2 (F := Ideal) x0 x1 = Cert.Gin.embed x0 x1 := by
  funext i
  obtain ⟨p, j, rfl⟩ : ∃ (p : Fin 2000) (j : Fin 128), i = ix2 p j := ⟨i 0, i 1, eq_ix2 i⟩
  exact block_apply x0 x1 p j ⟨j.val / 32, Nat.div_lt_of_lt_mul j.isLt⟩ ⟨j.val % 32, Nat.mod_lt _ (by decide)⟩
    (by show j.val = 32 * (j.val / 32) + j.val % 32; omega)

/-- The embedding is local to a row of ids and takes the table whole: a block's entry is the array's entry when the
    block's row of ids is the array's row and the tables agree. -/
private theorem embed_rows (X : IVec S100000x4 32) (xb : IVec S2000x4 32) (tab tb : FVec Ideal S4x1024x32 .f32)
    (y : S2000x128.Idx) (i : S100000x128.Idx)
    (hx : ∀ f : Fin 4, xb (ix2 (y 0) f) = X (ix2 (i 0) f)) (ht : tb = tab) (h1 : (y 1).val = (i 1).val) :
    Cert.Gin.embed xb tb y = Cert.Gin.embed X tab i := by
  subst ht
  unfold Cert.Gin.embed
  simp only [h1, hx]

/-- The printed index maps over the grid: the id window and the output window are at block t along the rows, the table
    window stays at block 0. -/
private theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- WHAT POINT t WRITES BACK is block t of the embedding of the whole id array through the whole table. -/
private theorem flushed_eq (c : Dev nD) (t : Fin cfg0.N) :
    (dat0 (F := Ideal) V c).flushed 2 t
      = ((cfg0.win 2).blk t).view.read (Elt Ideal) (Cert.Gin.embed (V c main_arg0) (V c main_v0)) := by
  show (cfg0.win 2).cut (grid0.coords t) ((dat0 (F := Ideal) V c).after 2 t) = _
  rw [after0_2, out_block (iblk0 V c 0 t) (iblk0 V c 1 t)]
  obtain ⟨e0, e1, e2, e3, e4, e5, e6⟩ := idx_facts t
  funext y
  show Cert.Gin.embed (iblk0 V c 0 t) (iblk0 V c 1 t) y
    = Cert.Gin.embed (V c main_arg0) (V c main_v0) (((cfg0.win 2).blk t).view.emb y)
  refine embed_rows (V c main_arg0) (iblk0 V c 0 t) (V c main_v0) (iblk0 V c 1 t) y _ (fun f => ?_) ?_ ?_
  · show V c main_arg0 (((cfg0.win 0).blk t).view.emb (ix2 (y 0) f))
      = V c main_arg0 (ix2 ((((cfg0.win 2).blk t).view.emb y) 0) f)
    refine congrArg (V c main_arg0) (funext fun a => Fin.ext ?_)
    match a with
    | ⟨0, _⟩ =>
      show win0_0.index t (0 : Fin 2) * 2000 + 1 * (y 0).val = win0_2.index t (0 : Fin 2) * 2000 + 1 * (y 0).val
      omega
    | ⟨1, _⟩ =>
      show win0_0.index t (1 : Fin 2) * 4 + 1 * f.val = f.val
      omega
  · funext z
    show V c main_v0 (((cfg0.win 1).blk t).view.emb z) = V c main_v0 z
    refine congrArg (V c main_v0) (funext fun a => Fin.ext ?_)
    match a with
    | ⟨0, _⟩ => show win0_1.index t (0 : Fin 3) * 4 + 1 * (z 0).val = (z 0).val; omega
    | ⟨1, _⟩ => show win0_1.index t (1 : Fin 3) * 1024 + 1 * (z 1).val = (z 1).val; omega
    | ⟨2, _⟩ => show win0_1.index t (2 : Fin 3) * 32 + 1 * (z 2).val = (z 2).val; omega
  · show (y 1).val = win0_2.index t (1 : Fin 2) * 128 + 1 * (y 1).val
    omega

/-- An index of the output array is in point t's block iff each coordinate is in the block's range on its axis. -/
private theorem mem_blk (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v1).slice (win0_2.rect t)).set ↔ _
  rw [View.set_slice_whole, Rect.mem_set_unit]
  exact Iff.rfl

/-- Every row n of the output array lies in the block of point n / 2000, and every point writes back. -/
private theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 2000 < cfg0.N := by
    show (i 0).val / 2000 < grid0.N
    rw [N_0]; omega
  obtain ⟨-, -, -, -, -, e5, e6⟩ := idx_facts ⟨(i 0).val / 2000, ht⟩
  have e5' : win0_2.index ⟨(i 0).val / 2000, ht⟩ (0 : Fin 2) = (i 0).val / 2000 := e5
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    omega

theorem arr0 (c : Dev nD) :
    (dat0 (F := Ideal) V c).arrAt 2 cfg0.N = Cert.Gin.embed (V c main_arg0) (V c main_v0) :=
  (dat0 (F := Ideal) V c).arrAt_eq_of_cover 2 (Cert.Gin.embed (V c main_arg0) (V c main_v0))
    (fun t _ => flushed_eq V c t) cover

end Cert.KernelIdeal.Region0

end
-- ==== Proof.Region1.lean ====
import proofs.«424596_j32280974197455_1_alg».proof.Proof.Gen.KernelIdeal.Frame
import proofs.«424596_j32280974197455_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## One product of the body, read at an entry

The body multiplies a block of 4000 rows by a square matrix of side 128, contracting the block's columns against the
matrix's rows, into a zero accumulator. At the extended reals its entry (p, q) is the sum over k of
lhs(p, k) · rhs(k, q). The four coordinate facts below say where the product's two operand indices sit. -/

private theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

private theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

private theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

private theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The product into the zero accumulator at entry (p, q): the sum over k of lhs(p, k) · rhs(k, q). -/
private theorem product_at {φ₁ φ₂ : FTy} (lhs : FVec Ideal S4000x128 φ₁) (rhs : FVec Ideal S128x128 φ₂) (i : S4000x128.Idx) :
    matmul dot_S4000x128_S128x128_S4000x128_1_0_0_1_n_n none lhs rhs (constant (F := Ideal) S4000x128 .f32 0x00000000#32) i
      = ∑ k : Fin 128, lhs (ix2 (i 0) k) * rhs (ix2 k (i 1)) := by
  simp only [matmul]
  rw [Ideal.matmul_constant_zero_apply,
    ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx i
      ((contrEquiv1 dot_S4000x128_S128x128_S4000x128_1_0_0_1_n_n 128 rfl rfl).symm k) = ix2 (i 0) k :=
    funext fun a => Fin.ext (by
      match a with
      | ⟨0, _⟩ => exact lhs_row _ _
      | ⟨1, _⟩ => exact (lhs_col _ _).trans hk)
  have er : dot_S4000x128_S128x128_S4000x128_1_0_0_1_n_n.rhsIdx i
      ((contrEquiv1 dot_S4000x128_S128x128_S4000x128_1_0_0_1_n_n 128 rfl rfl).symm k) = ix2 k (i 1) :=
    funext fun a => Fin.ext (by
      match a with
      | ⟨0, _⟩ => exact (rhs_row _ _).trans hk
      | ⟨1, _⟩ => exact rhs_col _ _)
  rw [el, er]
  rfl

/-- A bias kept as one row, spread over the block's 4000 rows, reads at (p, q) the row's entry q. -/
private theorem bias_at (b : FVec Ideal S1x128 .f32) (h : S1x128.Broadcasts S4000x128) (j : S4000x128.Idx) :
    broadcastTo S4000x128 b h j = b (ix2 0 (j 1)) :=
  broadcastTo_apply b h j (ix2 0 (j 1)) (fun a => match a with
    | ⟨0, _⟩ => by show (0 : Nat) = if (1 : Nat) = 1 then 0 else _; rw [if_pos rfl]
    | ⟨1, _⟩ => by
      show (j 1).val = if (128 : Nat) = 1 then 0 else _
      rw [if_neg (by decide)]
      rfl)

/-! ## The body's arithmetic on one block is the two-layer perceptron of the block -/

theorem body_eq (x a : FVec Ideal S4000x128 .f32) (wa wb : FVec Ideal S128x128 .f32) (ba bb : FVec Ideal S1x128 .f32) :
    k1_pay1 (F := Ideal) x a wa ba wb bb = Cert.Gin.mlp1 x a wa (Cert.Gin.row ba) wb (Cert.Gin.row bb) := by
  funext j
  unfold k1_pay1
  simp only [shapeCast_self, maximumf_apply, addf_apply, truncf_apply, broadcast_apply, product_at, bias_at]
  have zero_word : (FloatOps.ofBits (F := Ideal) .f32 0x00000000#32) = (0 : EReal) := Ideal.ofBits_zero_f32
  simp only [zero_word]
  rfl

/-! ## The perceptron works row by row

Entry (n, j) of the perceptron of two arrays uses row n of each array and nothing else of them. So if row y₀ of a pair
of blocks is row i₀ of a pair of arrays, the perceptron of the blocks at (y₀, j) is the perceptron of the arrays at
(i₀, j), for the same weights and biases. -/

theorem mlp1_row_local {N N' K M J : Nat} (X A : FVec Ideal ⟨2, ![N, K]⟩ .f32) (x a : FVec Ideal ⟨2, ![N', K]⟩ .f32)
    (wa : FVec Ideal ⟨2, ![K, M]⟩ .f32) (ba : FVec Ideal ⟨1, ![M]⟩ .f32) (wb : FVec Ideal ⟨2, ![M, J]⟩ .f32) (bb : FVec Ideal ⟨1, ![J]⟩ .f32)
    (i : (⟨2, ![N, J]⟩ : Shape).Idx) (y : (⟨2, ![N', J]⟩ : Shape).Idx) (hcol : y 1 = i 1)
    (hx : ∀ k, x (ix2 (y 0) k) = X (ix2 (i 0) k)) (ha : ∀ k, a (ix2 (y 0) k) = A (ix2 (i 0) k)) :
    Cert.Gin.mlp1 x a wa ba wb bb y = Cert.Gin.mlp1 X A wa ba wb bb i := by
  show max ((∑ k : Fin M, max ((∑ k' : Fin K, (x (ix2 (y 0) k') + a (ix2 (y 0) k')) * wa (ix2 k' k)) + ba (ix1 k)) 0 * wb (ix2 k (y 1))) + bb (ix1 (y 1))) 0
     = max ((∑ k : Fin M, max ((∑ k' : Fin K, (X (ix2 (i 0) k') + A (ix2 (i 0) k')) * wa (ix2 k' k)) + ba (ix1 k)) 0 * wb (ix2 k (i 1))) + bb (ix1 (i 1))) 0
  simp only [hx, ha, hcol]

/-! ## From the 25 blocks to the whole array -/

/-- The perceptron of the arrays the region finds: what its output array is to hold. -/
private abbrev target (c : Dev nD) : FVec Ideal S100000x128 .f32 :=
  Cert.Gin.mlp1 (V c main_v1) (V c main_v15) (V c main_arg3) (Cert.Gin.row (V c main_v16)) (V c main_arg5) (Cert.Gin.row (V c main_v17))

private theorem zero_offsets : (![0, 0] : Fin 2 → Nat) = fun _ => 0 :=
  funext fun a => match a with | ⟨0, _⟩ => rfl | ⟨1, _⟩ => rfl

/-- Where each window's block sits at point t: the two row-blocked inputs and the output at block t of the rows, every
    other window at its whole array. -/
private theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A square weight matrix's window holds the whole matrix at every point. -/
private theorem weights_block (c : Dev nD) (t : Fin cfg1.N) :
    (iblk1 V c 2 t : S128x128.Idx → EReal) = V c main_arg3 ∧ (iblk1 V c 4 t : S128x128.Idx → EReal) = V c main_arg5 := by
  obtain ⟨-, -, -, -, e20, e21, -, -, e40, e41, -, -, -, -⟩ := block_index t
  constructor
  · funext y
    show V c main_arg3 (((cfg1.win 2).blk t).view.emb y) = V c main_arg3 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_arg5 (((cfg1.win 4).blk t).view.emb y) = V c main_arg5 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega

/-- A one-row bias's window holds the whole row at every point. -/
private theorem biases_block (c : Dev nD) (t : Fin cfg1.N) :
    (iblk1 V c 3 t : S1x128.Idx → EReal) = V c main_v16 ∧ (iblk1 V c 5 t : S1x128.Idx → EReal) = V c main_v17 := by
  obtain ⟨-, -, -, -, -, -, e30, e31, -, -, e50, e51, -, -⟩ := block_index t
  constructor
  · funext y
    show V c main_v16 (((cfg1.win 3).blk t).view.emb y) = V c main_v16 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · funext y
    show V c main_v17 (((cfg1.win 5).blk t).view.emb y) = V c main_v17 y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega

/-- What point t writes back is block t of the perceptron of the whole arrays. -/
private theorem written_block (c : Dev nD) (t : Fin cfg1.N) :
    (dat1 (F := Ideal) V c).flushed 6 t = ((cfg1.win 6).blk t).view.read (Elt Ideal) (target V c) := by
  show (cfg1.win 6).cut (grid1.coords t) ((dat1 V c).after 6 t) = _
  rw [after1_6]
  unfold out1_6
  rw [View.canon_unit_zero zero_offsets]
  simp only [View.ld_unit_zero (S := S4000x128) zero_offsets, View.ld_unit_zero (S := S128x128) zero_offsets,
    View.ld_unit_zero (S := S1x128) zero_offsets]
  rw [body_eq]
  obtain ⟨w2, w4⟩ := weights_block V c t
  obtain ⟨b3, b5⟩ := biases_block V c t
  obtain ⟨e00, e01, e10, e11, -, -, -, -, -, -, -, -, e60, e61⟩ := block_index t
  funext y
  show Cert.Gin.mlp1 (iblk1 V c 0 t : S4000x128.Idx → EReal) (iblk1 V c 1 t : S4000x128.Idx → EReal)
      (iblk1 V c 2 t : S128x128.Idx → EReal) (Cert.Gin.row (iblk1 V c 3 t : S1x128.Idx → EReal))
      (iblk1 V c 4 t : S128x128.Idx → EReal) (Cert.Gin.row (iblk1 V c 5 t : S1x128.Idx → EReal)) y
    = target V c (((cfg1.win 6).blk t).view.emb y)
  rw [w2, w4, b3, b5]
  refine mlp1_row_local (V c main_v1) (V c main_v15) _ _ _ _ _ _ _ y (Fin.ext ?_) (fun k => ?_) (fun k => ?_)
  · show (y 1).val = win1_6.index t (1 : Fin 2) * 128 + 1 * (y 1).val
    omega
  · show V c main_v1 (((cfg1.win 0).blk t).view.emb (ix2 (y 0) k)) = V c main_v1 (ix2 ((((cfg1.win 6).blk t).view.emb y) 0) k)
    refine congrArg _ (funext fun a => Fin.ext ?_)
    match a with
    | ⟨0, _⟩ => show win1_0.index t (0 : Fin 2) * 4000 + 1 * (y 0).val = win1_6.index t (0 : Fin 2) * 4000 + 1 * (y 0).val; omega
    | ⟨1, _⟩ => show win1_0.index t (1 : Fin 2) * 128 + 1 * k.val = k.val; omega
  · show V c main_v15 (((cfg1.win 1).blk t).view.emb (ix2 (y 0) k)) = V c main_v15 (ix2 ((((cfg1.win 6).blk t).view.emb y) 0) k)
    refine congrArg _ (funext fun a => Fin.ext ?_)
    match a with
    | ⟨0, _⟩ => show win1_1.index t (0 : Fin 2) * 4000 + 1 * (y 0).val = win1_6.index t (0 : Fin 2) * 4000 + 1 * (y 0).val; omega
    | ⟨1, _⟩ => show win1_1.index t (1 : Fin 2) * 128 + 1 * k.val = k.val; omega

/-- An entry of the output array is in point t's block iff each coordinate is in the block's range on its axis. -/
private theorem mem_block (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v18).slice (win1_6.rect t)).set ↔ _
  rw [View.set_slice_whole, Rect.mem_set_unit]
  exact Iff.rfl

/-- The 25 blocks of 4000 rows fill the 100000 rows: row r is in block r / 4000. -/
private theorem covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := by decide
  let t : Fin cfg1.N := ⟨(i 0).val / 4000, by omega⟩
  obtain ⟨-, -, -, -, -, -, -, -, -, -, -, -, e60, e61⟩ := block_index t
  have ht : t.val = (i 0).val / 4000 := rfl
  refine ⟨t, flush1_6 t, ?_⟩
  rw [mem_block]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

theorem arr1 (c : Dev nD) :
    (dat1 (F := Ideal) V c).arrAt 6 cfg1.N
      = Cert.Gin.mlp1 (V c main_v1) (V c main_v15) (V c main_arg3) (Cert.Gin.row (V c main_v16)) (V c main_arg5) (Cert.Gin.row (V c main_v17)) := by
  exact (dat1 (F := Ideal) V c).arrAt_eq_of_cover 6 (target V c) (fun t _ => written_block V c t) covered

end Cert.KernelIdeal.Region1

end
-- ==== Proof.Region2.lean ====
import proofs.«424596_j32280974197455_1_alg».proof.Proof.Gen.KernelIdeal.Frame
import proofs.«424596_j32280974197455_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The two products of the body, entry by entry

Each product contracts the left operand's columns against the right operand's rows; its contraction index has one
axis, so the sum over it is a sum over that axis's coordinate. -/

/-- First product: the left operand is read in the output's row … -/
private theorem lhsA_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- … and the contracted column, -/
private theorem lhsA_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
/-- the right operand in the contracted row … -/
private theorem rhsA_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
/-- … and the output's column. -/
private theorem rhsA_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The first product into a zero accumulator, at entry (p, q): the sum over k of x(p, k) · w(k, q). -/
private theorem prodA_apply (x : FVec Ideal S4000x128 .bf16) (w : FVec Ideal S128x64 .bf16) (p : Fin 4000) (q : Fin 64) :
    matmul dot_S4000x128_S128x64_S4000x64_1_0_0_1_n_n none x w (constant (F := Ideal) S4000x64 .f32 0x00000000#32) (ix2 p q)
      = ∑ k : Fin 128, x (ix2 p k) * w (ix2 k q) := by
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact lhsA_0 _ _
    | ⟨1, _⟩ => exact (lhsA_1 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- Second product: the left operand is read in the output's row … -/
private theorem lhsB_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- … and the contracted column, -/
private theorem lhsB_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
/-- the right operand in the contracted row … -/
private theorem rhsB_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
/-- … and the output's column. -/
private theorem rhsB_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The second product into a zero accumulator, at entry (p, q): the sum over k of h(p, k) · w(k, q). -/
private theorem prodB_apply (h : FVec Ideal S4000x64 .bf16) (w : FVec Ideal S64x64 .bf16) (p : Fin 4000) (q : Fin 64) :
    matmul dot_S4000x64_S64x64_S4000x64_1_0_0_1_n_n none h w (constant (F := Ideal) S4000x64 .f32 0x00000000#32) (ix2 p q)
      = ∑ k : Fin 64, h (ix2 p k) * w (ix2 k q) := by
  simp only [matmul]
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ## The body's arithmetic on a block is the perceptron of the block -/

/-- What the body stores, as a function of the six blocks it loads: the two-layer perceptron of the sum of the two
    row blocks, with the one-row biases read as vectors and no clamp after the second layer. The format changes to
    the narrow float are the identity on the extended reals, and the zero word is 0. -/
theorem body_eq (x a : FVec Ideal S4000x128 .f32) (wa : FVec Ideal S128x64 .f32) (ba : FVec Ideal S1x64 .f32)
    (wb : FVec Ideal S64x64 .f32) (bb : FVec Ideal S1x64 .f32) :
    k2_pay1 (F := Ideal) x a wa ba wb bb = Cert.Gin.mlp2 x a wa (Cert.Gin.row ba) wb (Cert.Gin.row bb) := by
  funext j
  obtain ⟨p, q, rfl⟩ : ∃ (p : Fin 4000) (q : Fin 64), j = ix2 p q := ⟨j 0, j 1, eq_ix2 j⟩
  unfold k2_pay1
  simp only [shapeCast_self, addf_apply, prodB_apply, prodA_apply, truncf_apply, maximumf_apply, broadcast_apply,
    broadcastTo_1b_ab_apply, Ideal.ofBits_def, Ideal.ofBits_zero_f32]
  rfl

/-! ## The perceptron reads the two node arrays row by row -/

/-- Entry (n, j) of the perceptron depends on row n of the two node arrays only. So where the rows of a block are
    rows `r p` of the whole arrays, the perceptron of the block at (p, q) is the perceptron of the whole arrays at
    (r p, q): the weights and biases are shared. -/
theorem mlp2_rows {N n K M J : Nat} (X A : FVec Ideal ⟨2, ![N, K]⟩ .f32) (x a : FVec Ideal ⟨2, ![n, K]⟩ .f32)
    (wa : FVec Ideal ⟨2, ![K, M]⟩ .f32) (ba : FVec Ideal ⟨1, ![M]⟩ .f32) (wb : FVec Ideal ⟨2, ![M, J]⟩ .f32)
    (bb : FVec Ideal ⟨1, ![J]⟩ .f32) (r : Fin n → Fin N)
    (hx : ∀ p k, x (ix2 p k) = X (ix2 (r p) k)) (ha : ∀ p k, a (ix2 p k) = A (ix2 (r p) k)) (p : Fin n) (q : Fin J) :
    Cert.Gin.mlp2 x a wa ba wb bb (ix2 p q) = Cert.Gin.mlp2 X A wa ba wb bb (ix2 (r p) q) := by
  show (∑ k : Fin M, max ((∑ k' : Fin K, (x (ix2 p k') + a (ix2 p k')) * wa (ix2 k' k)) + ba (ix1 k)) 0 * wb (ix2 k q)) + bb (ix1 q)
     = (∑ k : Fin M, max ((∑ k' : Fin K, (X (ix2 (r p) k') + A (ix2 (r p) k')) * wa (ix2 k' k)) + ba (ix1 k)) 0 * wb (ix2 k q)) + bb (ix1 q)
  simp only [hx, ha]

/-! ## From the 25 row blocks to the whole array -/

theorem zero_offsets : (![0, 0] : Fin 2 → Nat) = fun _ => 0 := funext fun a => by
  match a with
  | ⟨0, _⟩ => rfl
  | ⟨1, _⟩ => rfl

/-- Where each window sits at point `t` of the 25: the two node arrays' windows and the output's window are on row
    block `t` (and column block 0); the weights' and biases' windows stay on their one block. -/
theorem block_indices : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ t.val < 25 :=
  (by decide +kernel : ∀ t : Fin grid2.N, _)

/-- Every row block is some point's: block `b` is point `b`'s. -/
theorem block_onto : ∀ b : Fin 25, ∃ t : Fin cfg2.N, t.val = b.val :=
  (by decide +kernel : ∀ b : Fin 25, ∃ t : Fin grid2.N, t.val = b.val)

/-- Row `p` of point `t`'s block is row 4000·t + p of the array. -/
def rowOf (t : Fin cfg2.N) (p : Fin 4000) : Fin 100000 :=
  ⟨t.val * 4000 + p.val, by have h := (block_indices t).2.2.2.2.2.2.2.2.2.2.2.2.2.2; have := p.isLt; omega⟩

/-- What the output array ends holding: the perceptron of the region's arrays as it finds them. -/
abbrev result (c : Dev nD) : FVec Ideal S100000x64 .f32 :=
  Cert.Gin.mlp2 (V c main_v18) (V c main_v28) (V c main_arg7) (Cert.Gin.row (V c main_v29)) (V c main_arg9) (Cert.Gin.row (V c main_v30))

/-- The first node array's block at point `t` holds rows 4000·t … 4000·t + 3999 of it. -/
theorem nodes_block (c : Dev nD) (t : Fin cfg2.N) (p : Fin 4000) (k : Fin 128) :
    (iblk2 V c 0 t : FVec Ideal S4000x128 .f32) (ix2 p k) = (V c main_v18 : FVec Ideal S100000x128 .f32) (ix2 (rowOf t p) k) := by
  obtain ⟨e0, e1, -⟩ := block_indices t
  show (V c main_v18 : FVec Ideal S100000x128 .f32) (((cfg2.win 0).blk t).view.emb (ix2 p k)) = _
  refine congrArg _ (funext fun a => Fin.ext ?_)
  match a with
  | ⟨0, _⟩ => show win2_0.index t (0 : Fin 2) * 4000 + 1 * p.val = t.val * 4000 + p.val; omega
  | ⟨1, _⟩ => show win2_0.index t (1 : Fin 2) * 128 + 1 * k.val = k.val; omega

/-- The aggregated array's block at point `t` holds the same rows of it. -/
theorem aggr_block (c : Dev nD) (t : Fin cfg2.N) (p : Fin 4000) (k : Fin 128) :
    (iblk2 V c 1 t : FVec Ideal S4000x128 .f32) (ix2 p k) = (V c main_v28 : FVec Ideal S100000x128 .f32) (ix2 (rowOf t p) k) := by
  obtain ⟨-, -, e0, e1, -⟩ := block_indices t
  show (V c main_v28 : FVec Ideal S100000x128 .f32) (((cfg2.win 1).blk t).view.emb (ix2 p k)) = _
  refine congrArg _ (funext fun a => Fin.ext ?_)
  match a with
  | ⟨0, _⟩ => show win2_1.index t (0 : Fin 2) * 4000 + 1 * p.val = t.val * 4000 + p.val; omega
  | ⟨1, _⟩ => show win2_1.index t (1 : Fin 2) * 128 + 1 * k.val = k.val; omega

/-- The first layer's weights are one block: every point's block of them is the whole array. -/
theorem wa_block (c : Dev nD) (t : Fin cfg2.N) : (iblk2 V c 2 t : FVec Ideal S128x64 .f32) = V c main_arg7 := by
  obtain ⟨-, -, -, -, e0, e1, -⟩ := block_indices t
  funext y
  show (V c main_arg7 : FVec Ideal S128x64 .f32) (((cfg2.win 2).blk t).view.emb y) = _
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 64 + 1 * (y 1).val = (y 1).val; omega

/-- So is the first layer's bias, -/
theorem ba_block (c : Dev nD) (t : Fin cfg2.N) : (iblk2 V c 3 t : FVec Ideal S1x64 .f32) = V c main_v29 := by
  obtain ⟨-, -, -, -, -, -, e0, e1, -⟩ := block_indices t
  funext y
  show (V c main_v29 : FVec Ideal S1x64 .f32) (((cfg2.win 3).blk t).view.emb y) = _
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- the second layer's weights, -/
theorem wb_block (c : Dev nD) (t : Fin cfg2.N) : (iblk2 V c 4 t : FVec Ideal S64x64 .f32) = V c main_arg9 := by
  obtain ⟨-, -, -, -, -, -, -, -, e0, e1, -⟩ := block_indices t
  funext y
  show (V c main_arg9 : FVec Ideal S64x64 .f32) (((cfg2.win 4).blk t).view.emb y) = _
  refine congrArg _ (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- and the second layer's bias. -/
theorem bb_block (c : Dev nD) (t : Fin cfg2.N) : (iblk2 V c 5 t : FVec Ideal S1x64 .f32) = V c main_v30 := by
  obtain ⟨-, -, -, -, -, -, -, -, -, -, e0, e1, -⟩ := block_indices t
  funext y
  show (V c main_v30 : FVec Ideal S1x64 .f32) (((cfg2.win 5).blk t).view.emb y) = _
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- WHAT POINT `t` WRITES BACK is block `t` of the perceptron of the whole arrays: the body leaves the perceptron of
    the blocks it loaded, the weights' and biases' blocks are the arrays themselves, and the perceptron reads the node
    arrays row by row. -/
theorem flushed_eq (c : Dev nD) (t : Fin cfg2.N) :
    (dat2 (F := Ideal) V c).flushed 6 t = ((cfg2.win 6).blk t).view.read (Elt Ideal) (result V c) := by
  show (cfg2.win 6).cut (grid2.coords t) ((dat2 V c).after 6 t) = _
  rw [after2_6]
  unfold out2_6
  rw [View.canon_unit_zero zero_offsets]
  simp only [View.ld_unit_zero (S := S4000x128) zero_offsets, View.ld_unit_zero (S := S128x64) zero_offsets,
    View.ld_unit_zero (S := S1x64) zero_offsets, View.ld_unit_zero (S := S64x64) zero_offsets]
  rw [wa_block, ba_block, wb_block, bb_block]
  rw [body_eq]
  funext j
  obtain ⟨p, q, rfl⟩ : ∃ (p : Fin 4000) (q : Fin 64), j = ix2 p q := ⟨j 0, j 1, eq_ix2 j⟩
  obtain ⟨-, -, -, -, -, -, -, -, -, -, -, -, e0, e1, -⟩ := block_indices t
  show Cert.Gin.mlp2 (iblk2 V c 0 t : FVec Ideal S4000x128 .f32) (iblk2 V c 1 t : FVec Ideal S4000x128 .f32) (V c main_arg7)
      (Cert.Gin.row (V c main_v29)) (V c main_arg9) (Cert.Gin.row (V c main_v30)) (ix2 p q)
    = result V c (((cfg2.win 6).blk t).view.emb (ix2 p q))
  have hi : ((cfg2.win 6).blk t).view.emb (ix2 p q) = ix2 (rowOf t p) q := funext fun a => Fin.ext (by
    match a with
    | ⟨0, _⟩ => show win2_6.index t (0 : Fin 2) * 4000 + 1 * p.val = t.val * 4000 + p.val; omega
    | ⟨1, _⟩ => show win2_6.index t (1 : Fin 2) * 64 + 1 * q.val = q.val; omega)
  rw [hi]
  exact mlp2_rows _ _ _ _ _ _ _ _ (rowOf t) (nodes_block V c t) (aggr_block V c t) p q

/-- An index of the output array is in point `t`'s block exactly when each coordinate is in the block's range on its axis. -/
theorem mem_block (t : Fin cfg2.N) (i : S100000x64.Idx) :
    i ∈ ((cfg2.win 6).blk t).view.set
      ↔ ∀ a : Fin 2, win2_6.index t a * S4000x64.size a ≤ (i a).val ∧ (i a).val < win2_6.index t a * S4000x64.size a + S4000x64.size a := by
  show i ∈ ((View.whole main_v31).slice (win2_6.rect t)).set ↔ _
  rw [View.set_slice_whole, Rect.mem_set_unit]
  exact Iff.rfl

/-- The 25 row blocks cover the output array: row `r` lies in block `r / 4000`, which is written back. -/
theorem covered (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ := block_onto ⟨(i 0).val / 4000, by omega⟩
  have ht' : t.val = (i 0).val / 4000 := ht
  obtain ⟨-, -, -, -, -, -, -, -, -, -, -, -, e0, e1, -⟩ := block_indices t
  refine ⟨t, flush2_6 t, ?_⟩
  rw [mem_block]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 64 ≤ (i 1).val ∧ (i 1).val < win2_6.index t (1 : Fin 2) * 64 + 64; omega

theorem arr2 (c : Dev nD) :
    (dat2 (F := Ideal) V c).arrAt 6 cfg2.N
      = Cert.Gin.mlp2 (V c main_v18) (V c main_v28) (V c main_arg7) (Cert.Gin.row (V c main_v29)) (V c main_arg9) (Cert.Gin.row (V c main_v30)) :=
  (dat2 V c).arrAt_eq_of_cover 6 (result V c) (fun t _ => flushed_eq V c t) covered

end Cert.KernelIdeal.Region2

end
-- ==== Proof.KHost.lean ====
import proofs.«424596_j32280974197455_1_alg».proof.Proof.Gen.KernelIdeal.Frame
import proofs.«424596_j32280974197455_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostRead

open Cert.KernelIdeal Cert.KernelIdeal.Gen Idealize.ShloMosaic Idealize.ShloMosaic.TcCoe Idealize.SL.Sem Idealize.ShloMosaic.ValueIdx
open Idealize.ShloMosaic.Pipeline (Dat Cfg Window)

/-- The table with each field's 1000 rows followed by 24 rows of zeros. -/
def padTab (tab : FVec Ideal S4x1000x32 .f32) : FVec Ideal S4x1024x32 .f32 :=
  pad S4x1024x32 ![0, 0, 0] ![0, 24, 0] ![0, 0, 0] tab (sitofp .f32 (constantI S_ 32 0#32)) pads_S4x1000x32_S4x1024x32_000_0240_000 h_S_

/-- The neighbour sum: row j of x is added into row dst of a zero array for every edge (src, dst) = (j, dst), a negative
    source counted from the end; the host computation both programs share, never opened. -/
def agg (e : IVec S2x1600000 32) (x : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0
      (shapeCast S1600000 (extractStridedSlice S1x1600000 ![1, 0] e slices_S2x1600000_S1x1600000_1_0) shapeCasts_S1x1600000_S1600000))
    (Host.gather gather_S100000x128_S1600000x1_S1600000x128_1_0_n_n_0_1_1128 x
      (broadcastInDim S1600000x1 ![0] bcast_S1600000_S1600000x1_0
        (select
          (cmpi .slt (shapeCast S1600000 (extractStridedSlice S1x1600000 ![0, 0] e slices_S2x1600000_S1x1600000_0_0) shapeCasts_S1x1600000_S1600000)
            (broadcastInDim S1600000 ![] bcast_S_S1600000 (constantI S_ 32 0#32)))
          (addi (shapeCast S1600000 (extractStridedSlice S1x1600000 ![0, 0] e slices_S2x1600000_S1x1600000_0_0) shapeCasts_S1x1600000_S1600000)
            (broadcastInDim S1600000 ![] bcast_S_S1600000 (constantI S_ 32 100000#32)))
          (shapeCast S1600000 (extractStridedSlice S1x1600000 ![0, 0] e slices_S2x1600000_S1x1600000_0_0) shapeCasts_S1x1600000_S1600000))))

/-- A buffer that no operation of a host stretch writes holds after the stretch what it held before it: the goal
    `after ops V b = V b` for a literal stretch and a literal buffer, each operation's result buffer told apart from `b`. -/
local macro "host_keeps" : tactic => `(tactic|
  (refine StableHlo.after_of_forall_not_mem _ _ (List.forall_iff_forall_mem.mp ?_)
   simp only [hostOps0, hostOps0_1, hostOps1, hostOps2, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
   repeat' apply And.intro
   all_goals exact StableHlo.devRef_ne_of_ne (by decide)))

/-- A one-row matrix made from a vector by a reshape, read back as a vector, is the vector. -/
private theorem row_shapeCast {J : Nat} (b : FVec Ideal ⟨1, ![J]⟩ .f32) (h : (⟨1, ![J]⟩ : Shape).ShapeCasts ⟨2, ![1, J]⟩) :
    Cert.Gin.row (shapeCast ⟨2, ![1, J]⟩ b h) = b := by
  funext j
  unfold Cert.Gin.row
  rw [shapeCast_a_1a_apply b h 0 (j 0)]
  exact congrArg b (eq_ix1 j).symm

variable (m : (ℓ : Loc nD τ sig) → Buf (Elt Ideal) ℓ) (ρ : Dev nD → PrngReg)

/-! The arguments the host stretches read, at the boundary where each is read: no stretch and no region before that
    boundary writes an argument, so each holds its launch contents. -/

private theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := by host_keeps
    _ = W0 m ρ c (Proc.devRef .tc main_arg1) := by host_keeps
    _ = m ((c : Thread nD τ).loc main_arg1) := rfl

private theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := by host_keeps
    _ = W0 m ρ c (Proc.devRef .tc main_arg4) := by host_keeps
    _ = m ((c : Thread nD τ).loc main_arg4) := rfl

private theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := by host_keeps
    _ = W0 m ρ c (Proc.devRef .tc main_arg6) := by host_keeps
    _ = m ((c : Thread nD τ).loc main_arg6) := rfl

private theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := by host_keeps
    _ = W2 m ρ c (Proc.devRef .tc main_arg8) := W3_of_ne m ρ c main_arg8 (by decide)
    _ = W1 m ρ c (Proc.devRef .tc main_arg8) := by host_keeps
    _ = W0 m ρ c (Proc.devRef .tc main_arg8) := by host_keeps
    _ = m ((c : Thread nD τ).loc main_arg8) := rfl

private theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := by host_keeps
    _ = W2 m ρ c (Proc.devRef .tc main_arg10) := W3_of_ne m ρ c main_arg10 (by decide)
    _ = W1 m ρ c (Proc.devRef .tc main_arg10) := by host_keeps
    _ = W0 m ρ c (Proc.devRef .tc main_arg10) := by host_keeps
    _ = m ((c : Thread nD τ).loc main_arg10) := rfl

/-! Region 0's entry: the ids as launched, the table padded. -/
theorem V2_arg0 (c : Dev nD) : V2 m ρ c main_arg0 = m ((c : Thread nD τ).loc main_arg0) :=
  calc W2 m ρ c (Proc.devRef .tc main_arg0)
    _ = W1 m ρ c (Proc.devRef .tc main_arg0) := by host_keeps
    _ = W0 m ρ c (Proc.devRef .tc main_arg0) := by host_keeps
    _ = m ((c : Thread nD τ).loc main_arg0) := rfl
theorem V2_v0 (c : Dev nD) : V2 m ρ c main_v0 = padTab (m ((c : Thread nD τ).loc main_arg2)) := by
  show StableHlo.after hostOps0_1 (W1 m ρ c) (Proc.devRef .tc main_v0) = _
  after_results
  rfl

/-! Region 1's entry: region 0's result, its neighbour sum, the first perceptron's weights and biases. -/
private theorem W4_v1 (c : Dev nD) : W4 m ρ c (Proc.devRef .tc main_v1) = W3 m ρ c (Proc.devRef .tc main_v1) := by host_keeps
theorem V4_v1 (c : Dev nD) : V4 m ρ c main_v1 = (dat0 (F := Ideal) (V2 m ρ) c).arrAt 2 cfg0.N :=
  (W4_v1 m ρ c).trans (W3_arr m ρ c 2)
theorem V4_v15 (c : Dev nD) : V4 m ρ c main_v15 = agg (m ((c : Thread nD τ).loc main_arg1)) (V4 m ρ c main_v1) := by
  rw [show V4 m ρ c main_v1 = W3 m ρ c (Proc.devRef .tc main_v1) from W4_v1 m ρ c]
  show StableHlo.after hostOps1 (W3 m ρ c) (Proc.devRef .tc main_v15) = _
  after_results
  rw [W3_arg1]
  rfl
theorem V4_arg3 (c : Dev nD) : V4 m ρ c main_arg3 = m ((c : Thread nD τ).loc main_arg3) :=
  calc W4 m ρ c (Proc.devRef .tc main_arg3)
    _ = W3 m ρ c (Proc.devRef .tc main_arg3) := by host_keeps
    _ = W2 m ρ c (Proc.devRef .tc main_arg3) := W3_of_ne m ρ c main_arg3 (by decide)
    _ = W1 m ρ c (Proc.devRef .tc main_arg3) := by host_keeps
    _ = W0 m ρ c (Proc.devRef .tc main_arg3) := by host_keeps
    _ = m ((c : Thread nD τ).loc main_arg3) := rfl
theorem V4_v16 (c : Dev nD) : Cert.Gin.row (V4 m ρ c main_v16) = m ((c : Thread nD τ).loc main_arg4) := by
  have e : V4 m ρ c main_v16 = shapeCast S1x128 (m ((c : Thread nD τ).loc main_arg4)) shapeCasts_S128_S1x128 := by
    show StableHlo.after hostOps1 (W3 m ρ c) (Proc.devRef .tc main_v16) = _
    after_results
    rw [W3_arg4]
    rfl
  rw [e]
  exact row_shapeCast _ _
theorem V4_arg5 (c : Dev nD) : V4 m ρ c main_arg5 = m ((c : Thread nD τ).loc main_arg5) :=
  calc W4 m ρ c (Proc.devRef .tc main_arg5)
    _ = W3 m ρ c (Proc.devRef .tc main_arg5) := by host_keeps
    _ = W2 m ρ c (Proc.devRef .tc main_arg5) := W3_of_ne m ρ c main_arg5 (by decide)
    _ = W1 m ρ c (Proc.devRef .tc main_arg5) := by host_keeps
    _ = W0 m ρ c (Proc.devRef .tc main_arg5) := by host_keeps
    _ = m ((c : Thread nD τ).loc main_arg5) := rfl
theorem V4_v17 (c : Dev nD) : Cert.Gin.row (V4 m ρ c main_v17) = m ((c : Thread nD τ).loc main_arg6) := by
  have e : V4 m ρ c main_v17 = shapeCast S1x128 (m ((c : Thread nD τ).loc main_arg6)) shapeCasts_S128_S1x128 := by
    show StableHlo.after hostOps1 (W3 m ρ c) (Proc.devRef .tc main_v17) = _
    after_results
    rw [W3_arg6]
    rfl
  rw [e]
  exact row_shapeCast _ _

/-! Region 2's entry: region 1's result, its neighbour sum, the second perceptron's weights and biases. -/

/-- The edge list's source row as a vector: written before region 1, untouched by it, read again after it. -/
private theorem W5_v3 (c : Dev nD) : W5 m ρ c (Proc.devRef .tc main_v3)
    = shapeCast S1600000 (extractStridedSlice S1x1600000 ![0, 0] (m ((c : Thread nD τ).loc main_arg1)) slices_S2x1600000_S1x1600000_0_0)
        shapeCasts_S1x1600000_S1600000 := by
  refine (W5_of_ne m ρ c main_v3 (by decide)).trans ?_
  show StableHlo.after hostOps1 (W3 m ρ c) (Proc.devRef .tc main_v3) = _
  after_results
  rw [W3_arg1]
  rfl
/-- The edge list's destination row as a vector, likewise. -/
private theorem W5_v5 (c : Dev nD) : W5 m ρ c (Proc.devRef .tc main_v5)
    = shapeCast S1600000 (extractStridedSlice S1x1600000 ![1, 0] (m ((c : Thread nD τ).loc main_arg1)) slices_S2x1600000_S1x1600000_1_0)
        shapeCasts_S1x1600000_S1600000 := by
  refine (W5_of_ne m ρ c main_v5 (by decide)).trans ?_
  show StableHlo.after hostOps1 (W3 m ρ c) (Proc.devRef .tc main_v5) = _
  after_results
  rw [W3_arg1]
  rfl
private theorem W6_v18 (c : Dev nD) : W6 m ρ c (Proc.devRef .tc main_v18) = W5 m ρ c (Proc.devRef .tc main_v18) := by host_keeps
theorem V6_v18 (c : Dev nD) : V6 m ρ c main_v18 = (dat1 (F := Ideal) (V4 m ρ) c).arrAt 6 cfg1.N :=
  (W6_v18 m ρ c).trans (W5_arr m ρ c 6)
theorem V6_v28 (c : Dev nD) : V6 m ρ c main_v28 = agg (m ((c : Thread nD τ).loc main_arg1)) (V6 m ρ c main_v18) := by
  rw [show V6 m ρ c main_v18 = W5 m ρ c (Proc.devRef .tc main_v18) from W6_v18 m ρ c]
  show StableHlo.after hostOps2 (W5 m ρ c) (Proc.devRef .tc main_v28) = _
  after_results
  rw [W5_v3, W5_v5]
  rfl
theorem V6_arg7 (c : Dev nD) : V6 m ρ c main_arg7 = m ((c : Thread nD τ).loc main_arg7) :=
  calc W6 m ρ c (Proc.devRef .tc main_arg7)
    _ = W5 m ρ c (Proc.devRef .tc main_arg7) := by host_keeps
    _ = W4 m ρ c (Proc.devRef .tc main_arg7) := W5_of_ne m ρ c main_arg7 (by decide)
    _ = W3 m ρ c (Proc.devRef .tc main_arg7) := by host_keeps
    _ = W2 m ρ c (Proc.devRef .tc main_arg7) := W3_of_ne m ρ c main_arg7 (by decide)
    _ = W1 m ρ c (Proc.devRef .tc main_arg7) := by host_keeps
    _ = W0 m ρ c (Proc.devRef .tc main_arg7) := by host_keeps
    _ = m ((c : Thread nD τ).loc main_arg7) := rfl
theorem V6_v29 (c : Dev nD) : Cert.Gin.row (V6 m ρ c main_v29) = m ((c : Thread nD τ).loc main_arg8) := by
  have e : V6 m ρ c main_v29 = shapeCast S1x64 (m ((c : Thread nD τ).loc main_arg8)) shapeCasts_S64_S1x64 := by
    show StableHlo.after hostOps2 (W5 m ρ c) (Proc.devRef .tc main_v29) = _
    after_results
    rw [W5_arg8]
    rfl
  rw [e]
  exact row_shapeCast _ _
theorem V6_arg9 (c : Dev nD) : V6 m ρ c main_arg9 = m ((c : Thread nD τ).loc main_arg9) :=
  calc W6 m ρ c (Proc.devRef .tc main_arg9)
    _ = W5 m ρ c (Proc.devRef .tc main_arg9) := by host_keeps
    _ = W4 m ρ c (Proc.devRef .tc main_arg9) := W5_of_ne m ρ c main_arg9 (by decide)
    _ = W3 m ρ c (Proc.devRef .tc main_arg9) := by host_keeps
    _ = W2 m ρ c (Proc.devRef .tc main_arg9) := W3_of_ne m ρ c main_arg9 (by decide)
    _ = W1 m ρ c (Proc.devRef .tc main_arg9) := by host_keeps
    _ = W0 m ρ c (Proc.devRef .tc main_arg9) := by host_keeps
    _ = m ((c : Thread nD τ).loc main_arg9) := rfl
theorem V6_v30 (c : Dev nD) : Cert.Gin.row (V6 m ρ c main_v30) = m ((c : Thread nD τ).loc main_arg10) := by
  have e : V6 m ρ c main_v30 = shapeCast S1x64 (m ((c : Thread nD τ).loc main_arg10)) shapeCasts_S64_S1x64 := by
    show StableHlo.after hostOps2 (W5 m ρ c) (Proc.devRef .tc main_v30) = _
    after_results
    rw [W5_arg10]
    rfl
  rw [e]
  exact row_shapeCast _ _

/-! The result array at the end: what region 2 leaves. -/
theorem W7_v31 (c : Dev nD) : W7 m ρ c (Proc.devRef .tc main_v31) = (dat2 (F := Ideal) (V6 m ρ) c).arrAt 6 cfg2.N :=
  W7_arr m ρ c 6

end Cert.KernelIdeal.HostRead

end
-- ==== Proof.KValue.lean ====
import proofs.«424596_j32280974197455_1_alg».proof.Proof.Region0
import proofs.«424596_j32280974197455_1_alg».proof.Proof.Region1
import proofs.«424596_j32280974197455_1_alg».proof.Proof.Region2
import proofs.«424596_j32280974197455_1_alg».proof.Proof.KHost

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat Cfg Window)

open Cert.KernelIdeal.HostRead

/-- The whole kernel program as one function of its arguments: embed over the padded table, two convolutions. -/
def result (xc : IVec S100000x4 32) (e : IVec S2x1600000 32) (tab : FVec Ideal S4x1000x32 .f32)
    (w1a : FVec Ideal S128x128 .f32) (b1a : FVec Ideal S128 .f32) (w1b : FVec Ideal S128x128 .f32) (b1b : FVec Ideal S128 .f32)
    (w2a : FVec Ideal S128x64 .f32) (b2a : FVec Ideal S64 .f32) (w2b : FVec Ideal S64x64 .f32) (b2b : FVec Ideal S64 .f32) :
    FVec Ideal S100000x64 .f32 :=
  Cert.Gin.mlp2
    (Cert.Gin.mlp1 (Cert.Gin.embed xc (padTab tab)) (agg e (Cert.Gin.embed xc (padTab tab))) w1a b1a w1b b1b)
    (agg e (Cert.Gin.mlp1 (Cert.Gin.embed xc (padTab tab)) (agg e (Cert.Gin.embed xc (padTab tab))) w1a b1a w1b b1b))
    w2a b2a w2b b2b

variable (m : (ℓ : Loc nD τ sig) → Buf (Elt Ideal) ℓ) (ρ : Dev nD → PrngReg)

theorem W7_result (c : Dev nD) :
    W7 m ρ c (Proc.devRef .tc main_v31)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  -- the result array is what region 2 leaves: the second perceptron on region 1's result and its neighbour sum
  rw [W7_v31, Region2.arr2 (V6 m ρ) c, V6_v28, V6_v18]
  -- region 1's result: the first perceptron on region 0's result and its neighbour sum
  rw [Region1.arr1 (V4 m ρ) c, V4_v15, V4_v1]
  -- region 0's result: the embedding of the ids over the padded table
  rw [Region0.arr0 (V2 m ρ) c]
  -- every weight, bias, id and table entry is the launch's
  rw [V6_arg7, V6_v29, V6_arg9, V6_v30, V4_arg3, V4_v16, V4_arg5, V4_v17, V2_arg0, V2_v0]
  rfl

end Cert.KernelIdeal.KValue

end
-- ==== Proof.RefValue.lean ====
import proofs.«424596_j32280974197455_1_alg».proof.Proof.Gen.ReferenceIdeal.Run
import proofs.«424596_j32280974197455_1_alg».proof.Proof.Gen.ReferenceIdeal.Read
import proofs.«424596_j32280974197455_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.ValueIdx

/-- The neighbour sum: row j of x is added into row dst of a zero array for every edge (src, dst) = (j, dst), a negative
    source counted from the end; the host computation both programs share, never opened. -/
def agg (e : IVec S2x1600000 32) (x : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0
      (shapeCast S1600000 (extractStridedSlice S1x1600000 ![1, 0] e slices_S2x1600000_S1x1600000_1_0) shapeCasts_S1x1600000_S1600000))
    (Host.gather gather_S100000x128_S1600000x1_S1600000x128_1_0_n_n_0_1_1128 x
      (broadcastInDim S1600000x1 ![0] bcast_S1600000_S1600000x1_0
        (select
          (cmpi .slt (shapeCast S1600000 (extractStridedSlice S1x1600000 ![0, 0] e slices_S2x1600000_S1x1600000_0_0) shapeCasts_S1x1600000_S1600000)
            (broadcastInDim S1600000 ![] bcast_S_S1600000 (constantI S_ 32 0#32)))
          (addi (shapeCast S1600000 (extractStridedSlice S1x1600000 ![0, 0] e slices_S2x1600000_S1x1600000_0_0) shapeCasts_S1x1600000_S1600000)
            (broadcastInDim S1600000 ![] bcast_S_S1600000 (constantI S_ 32 100000#32)))
          (shapeCast S1600000 (extractStridedSlice S1x1600000 ![0, 0] e slices_S2x1600000_S1x1600000_0_0) shapeCasts_S1x1600000_S1600000))))

/-- The whole reference as one function of its arguments, over the reference's own embedding `x0`: two convolutions. -/
def result (x0 : FVec Ideal S100000x128 .f32) (e : IVec S2x1600000 32)
    (w1a : FVec Ideal S128x128 .f32) (b1a : FVec Ideal S128 .f32) (w1b : FVec Ideal S128x128 .f32) (b1b : FVec Ideal S128 .f32)
    (w2a : FVec Ideal S128x64 .f32) (b2a : FVec Ideal S64 .f32) (w2b : FVec Ideal S64x64 .f32) (b2b : FVec Ideal S64 .f32) :
    FVec Ideal S100000x64 .f32 :=
  Cert.Gin.mlp2
    (Cert.Gin.mlp1 x0 (agg e x0) w1a b1a w1b b1b)
    (agg e (Cert.Gin.mlp1 x0 (agg e x0) w1a b1a w1b b1b))
    w2a b2a w2b b2b

open Cert.ReferenceIdeal.Read

/-! ## The first neighbour sum -/

/-- The reference's operations from the two slices of the edge list down to the scatter are, read as one term, the
    neighbour sum of the embedding. -/
private theorem agg1_eq (x0 : (⟨S100000x4, .i32⟩ : BufTy).Contents (Elt Ideal)) (x1 : (⟨S2x1600000, .i32⟩ : BufTy).Contents (Elt Ideal)) (x2 : (⟨S4x1000x32, .f32⟩ : BufTy).Contents (Elt Ideal)) :
    val_main_v58 (F := Ideal) x0 x1 x2 = agg x1 (val_main_v44 (F := Ideal) x0 x2) := by
  unfold val_main_v58 val_main_v55
  generalize val_main_v44 (F := Ideal) x0 x2 = X
  unfold val_main_v57 val_main_v56 val_main_v54 val_main_v53 val_main_v52 val_main_v51 val_main_v50 val_main_v49
    val_main_v48 val_main_v47 val_main_v46 val_main_v45 val_main_cst val_main_c_7 val_main_c_8 agg
  rfl

/-! ## The index functions of the two-layer perceptrons, by coordinates

  A contraction reads its left operand at (row, k) and its right operand at (k, column); a bias broadcast along the rows
  is read at the column. The extents are written out in full. -/

private theorem lidx60 (j : S100000x128.Idx) (k : Fin 128) : lidx_main_v60 j k = @ix2 100000 128 (j 0) k :=
  funext fun a => Fin.ext (by match a with | ⟨0, _⟩ => rfl | ⟨1, _⟩ => rfl)
private theorem ridx60 (j : S100000x128.Idx) (k : Fin 128) : ridx_main_v60 j k = @ix2 128 128 k (j 1) :=
  funext fun a => Fin.ext (by match a with | ⟨0, _⟩ => rfl | ⟨1, _⟩ => rfl)
private theorem lidx65 (j : S100000x128.Idx) (k : Fin 128) : lidx_main_v65 j k = @ix2 100000 128 (j 0) k :=
  funext fun a => Fin.ext (by match a with | ⟨0, _⟩ => rfl | ⟨1, _⟩ => rfl)
private theorem ridx65 (j : S100000x128.Idx) (k : Fin 128) : ridx_main_v65 j k = @ix2 128 128 k (j 1) :=
  funext fun a => Fin.ext (by match a with | ⟨0, _⟩ => rfl | ⟨1, _⟩ => rfl)
private theorem bidx61 (j : S100000x128.Idx) : idx_main_v61 (idx_main_v62 j) = @ix1 128 (j 1) :=
  funext fun a => Fin.ext (by match a with | ⟨0, _⟩ => rfl)
private theorem bidx66 (j : S100000x128.Idx) : idx_main_v66 (idx_main_v67 j) = @ix1 128 (j 1) :=
  funext fun a => Fin.ext (by match a with | ⟨0, _⟩ => rfl)
private theorem lidx81 (j : S100000x64.Idx) (k : Fin 128) : lidx_main_v81 j k = @ix2 100000 128 (j 0) k :=
  funext fun a => Fin.ext (by match a with | ⟨0, _⟩ => rfl | ⟨1, _⟩ => rfl)
private theorem ridx81 (j : S100000x64.Idx) (k : Fin 128) : ridx_main_v81 j k = @ix2 128 64 k (j 1) :=
  funext fun a => Fin.ext (by match a with | ⟨0, _⟩ => rfl | ⟨1, _⟩ => rfl)
private theorem lidx86 (j : S100000x64.Idx) (k : Fin 64) : lidx_main_v86 j k = @ix2 100000 64 (j 0) k :=
  funext fun a => Fin.ext (by match a with | ⟨0, _⟩ => rfl | ⟨1, _⟩ => rfl)
private theorem ridx86 (j : S100000x64.Idx) (k : Fin 64) : ridx_main_v86 j k = @ix2 64 64 k (j 1) :=
  funext fun a => Fin.ext (by match a with | ⟨0, _⟩ => rfl | ⟨1, _⟩ => rfl)
private theorem bidx82 (j : S100000x64.Idx) : idx_main_v82 (idx_main_v83 j) = @ix1 64 (j 1) :=
  funext fun a => Fin.ext (by match a with | ⟨0, _⟩ => rfl)
private theorem bidx87 (j : S100000x64.Idx) : idx_main_v87 (idx_main_v88 j) = @ix1 64 (j 1) :=
  funext fun a => Fin.ext (by match a with | ⟨0, _⟩ => rfl)

/-! ## The first convolution's perceptron -/

/-- Entry by entry the operations from the sum of the embedding and its neighbour sum down to the second clamp are
    the two linear layers with bias, each followed by the clamp at zero. -/
private theorem mlp1_eq (x0 : (⟨S100000x4, .i32⟩ : BufTy).Contents (Elt Ideal)) (x1 : (⟨S2x1600000, .i32⟩ : BufTy).Contents (Elt Ideal)) (x2 : (⟨S4x1000x32, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v69 (F := Ideal) x0 x1 x2 x3 x4 x5 x6
      = Cert.Gin.mlp1 (val_main_v44 (F := Ideal) x0 x2) (val_main_v58 (F := Ideal) x0 x1 x2) x3 x4 x5 x6 := by
  funext i
  rw [val_main_v69_apply, val_main_v68_apply, val_main_v65_apply, val_main_v67_apply, val_main_v66_apply,
    val_main_call1_v0_apply, val_main_call1_cst_apply]
  simp only [val_main_v64_apply, val_main_v63_apply, val_main_v60_apply, val_main_v62_apply, val_main_v61_apply,
    val_main_v59_apply, val_main_call0_v0_apply, val_main_call0_cst_apply]
  generalize val_main_v44 (F := Ideal) x0 x2 = X
  generalize val_main_v58 (F := Ideal) x0 x1 x2 = A
  simp only [lidx60, ridx60, lidx65, ridx65, bidx61, bidx66, Ideal.addf_def, Ideal.maximumf_def, Ideal.ofBits_def,
    Ideal.ofBits_zero_f32]
  unfold Cert.Gin.mlp1 Cert.Gin.dense Cert.Gin.clamp0 Cert.Gin.plus
  rfl

/-! ## The second neighbour sum -/

private theorem agg2_eq (x0 : (⟨S100000x4, .i32⟩ : BufTy).Contents (Elt Ideal)) (x1 : (⟨S2x1600000, .i32⟩ : BufTy).Contents (Elt Ideal)) (x2 : (⟨S4x1000x32, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v79 (F := Ideal) x0 x1 x2 x3 x4 x5 x6 = agg x1 (val_main_v69 (F := Ideal) x0 x1 x2 x3 x4 x5 x6) := by
  unfold val_main_v79 val_main_v76
  generalize val_main_v69 (F := Ideal) x0 x1 x2 x3 x4 x5 x6 = X
  unfold val_main_v78 val_main_v77 val_main_v75 val_main_v74 val_main_v73 val_main_v72 val_main_v71 val_main_v70
    val_main_v48 val_main_v47 val_main_v46 val_main_v45 val_main_cst_11 val_main_c_9 val_main_c_10 agg
  rfl

/-! ## The second convolution's perceptron -/

/-- The same two linear layers with one clamp between them, on the first convolution's result and its neighbour sum. -/
private theorem mlp2_eq (x0 : (⟨S100000x4, .i32⟩ : BufTy).Contents (Elt Ideal)) (x1 : (⟨S2x1600000, .i32⟩ : BufTy).Contents (Elt Ideal)) (x2 : (⟨S4x1000x32, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v89 (F := Ideal) x0 x1 x2 x3 x4 x5 x6 x7 x8 x9 x10
      = Cert.Gin.mlp2 (val_main_v69 (F := Ideal) x0 x1 x2 x3 x4 x5 x6) (val_main_v79 (F := Ideal) x0 x1 x2 x3 x4 x5 x6)
          x7 x8 x9 x10 := by
  funext i
  rw [val_main_v89_apply, val_main_v86_apply, val_main_v88_apply, val_main_v87_apply]
  simp only [val_main_v85_apply, val_main_v84_apply, val_main_v81_apply, val_main_v83_apply, val_main_v82_apply,
    val_main_v80_apply, val_main_call2_v0_apply, val_main_call2_cst_apply]
  generalize val_main_v69 (F := Ideal) x0 x1 x2 x3 x4 x5 x6 = X
  generalize val_main_v79 (F := Ideal) x0 x1 x2 x3 x4 x5 x6 = A
  simp only [lidx81, ridx81, lidx86, ridx86, bidx82, bidx87, Ideal.addf_def, Ideal.maximumf_def, Ideal.ofBits_def,
    Ideal.ofBits_zero_f32]
  unfold Cert.Gin.mlp2 Cert.Gin.dense Cert.Gin.clamp0 Cert.Gin.plus
  rfl

/-! ## The whole reference -/

theorem res_eq (m : (ℓ : Loc nD τ sig) → Buf (Elt Ideal) ℓ) (c : Dev nD) :
    Cert.ReferenceIdeal.Value.res_main_v89 (F := Ideal) m c
      = result (Cert.ReferenceIdeal.Read.val_main_v44 (F := Ideal) (m ((c.tc : Thread nD τ).loc main_arg0)) (m ((c.tc : Thread nD τ).loc main_arg2)))
          (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  rw [Cert.ReferenceIdeal.Read.val_main_v89_eq, mlp2_eq, agg2_eq, mlp1_eq, agg1_eq]
  unfold result
  rfl

end Cert.ReferenceIdeal.RefValue

end
-- ==== Proof.EmbedPad.lean ====
import proofs.«424596_j32280974197455_1_alg».proof.Proof.KHost
import proofs.«424596_j32280974197455_1_alg».proof.Proof.Spec
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.Gin.EmbedPad

open Idealize.ShloMosaic Idealize.ShloMosaic.ValueIdx

/-- The embedding read at a feature whose id names a row of the table: the dependent choice takes its first branch. -/
private theorem embed_apply_of_lt {N R : Nat} (xc : IVec ⟨2, ![N, 4]⟩ 32) (tab : FVec Ideal ⟨3, ![4, R, 32]⟩ .f32)
    (i : (⟨2, ![N, 128]⟩ : Shape).Idx)
    (h : (xc (ix2 (i 0) ⟨(i 1).val / 32, Nat.div_lt_of_lt_mul (i 1).isLt⟩)).toNat < R) :
    Cert.Gin.embed xc tab i
      = tab (ix3 ⟨(i 1).val / 32, Nat.div_lt_of_lt_mul (i 1).isLt⟩
          ⟨(xc (ix2 (i 0) ⟨(i 1).val / 32, Nat.div_lt_of_lt_mul (i 1).isLt⟩)).toNat, h⟩
          ⟨(i 1).val % 32, Nat.mod_lt _ (by decide)⟩) := by
  unfold Cert.Gin.embed
  exact dif_pos h

/-- A row below 1000 of the padded table is the table's own row: the padding sits after row 999 of each field, the
    low padding is zero on every axis and nothing is put between entries, so the padded index and the table's index
    have the same three coordinates. -/
private theorem padTab_apply (tab : FVec Ideal ⟨3, ![4, 1000, 32]⟩ .f32) (f : Fin 4) (n : Nat) (hn : n < 1000) (e : Fin 32) :
    Cert.KernelIdeal.HostRead.padTab tab (ix3 f ⟨n, Nat.lt_trans hn (by decide)⟩ e) = tab (ix3 f ⟨n, hn⟩ e) := by
  unfold Cert.KernelIdeal.HostRead.padTab
  refine pad_apply_of_inside _ _ _ tab _ _ _ _ (ix3 f ⟨n, hn⟩ e) ?_
  intro a
  match a with
  | ⟨0, _⟩ => show f.val = 0 + f.val * (0 + 1); omega
  | ⟨1, _⟩ => show n = 0 + n * (0 + 1); omega
  | ⟨2, _⟩ => show e.val = 0 + e.val * (0 + 1); omega

/-- With every id inside its table, padding the table with zero rows changes no selected row. -/
theorem embed_padTab (xc : IVec ⟨2, ![100000, 4]⟩ 32) (tab : FVec Ideal ⟨3, ![4, 1000, 32]⟩ .f32) (hx : ∀ i, (xc i).toNat < 1000) :
    Cert.Gin.embed xc (Cert.KernelIdeal.HostRead.padTab tab) = Cert.Gin.embed xc tab := by
  funext i
  -- the id this feature reads is below 1000, hence below 1024: both sides take the row it names
  have hlt := hx (ix2 (i 0) ⟨(i 1).val / 32, Nat.div_lt_of_lt_mul (i 1).isLt⟩)
  rw [embed_apply_of_lt xc (Cert.KernelIdeal.HostRead.padTab tab) i (Nat.lt_trans hlt (by decide)),
    embed_apply_of_lt xc tab i hlt]
  exact padTab_apply tab _ _ hlt _

end Cert.Gin.EmbedPad

end
-- ==== Proof.EmbedRef.lean ====
import proofs.«424596_j32280974197455_1_alg».proof.Proof.Gen.ReferenceIdeal.Read
import proofs.«424596_j32280974197455_1_alg».proof.Proof.Spec
import Idealize.ShloMosaic.Lib.Pipeline.Value
import Idealize.ShloMosaic.Lib.ValueIdx
import Idealize.ShloMosaic.Lib.ValueLayout
import Idealize.ShloMosaic.Lib.StableHlo.Predicate

set_option maxRecDepth 16384

noncomputable section

namespace Cert.Gin.EmbedRef

open Idealize.ShloMosaic Idealize.ShloMosaic.ValueIdx
open Cert.ReferenceIdeal Cert.ReferenceIdeal.Gen Cert.ReferenceIdeal.Read

/-! ## The row lookup read at an index -/

private abbrev gd := gather_S1000x32_S100000x1_S100000x32_1_0_n_n_0_1_132

/-- The row lookup read at (n, e): the operand at row (node n's start index, read signed and clamped into [0, 999]),
    column e. Axis 0 of the operand is the looked-up one (its slice has one row, so the start is clamped to 999 and no
    offset is added); axis 1 is copied whole (start 0, offset e). -/
theorem gather_row {α : Type} (x : S1000x32.Idx → α) (idx : IVec S100000x1 32) (j : S100000x32.Idx) :
    Host.gather gather_S1000x32_S100000x1_S100000x32_1_0_n_n_0_1_132 x idx j
      = x (ix2 ⟨min (idx (ix2 (j 0) 0)).toInt.toNat 999, by omega⟩ (j 1)) := by
  unfold Host.gather
  congr 1
  funext a
  refine Fin.ext ?_
  match a with
  | ⟨0, _⟩ =>
    show gd.start j idx 0 + gd.batchCoord j 0 + gd.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S1000x32.rank) ∈ gd.startIndexMap from List.mem_singleton.mpr rfl)]
    have hsi : gd.siIdx j ⟨List.idxOf (0 : Fin S1000x32.rank) gd.startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show gd.start j idx 1 + gd.batchCoord j 1 + gd.offCoord j 1 = _
    have hs : gd.start j idx 1 = 0 := by
      unfold GatherDims.start; rw [dif_neg (by decide)]
    rw [hs, GatherDims.batchCoord_eq_zero _ _ _ List.not_mem_nil]
    unfold GatherDims.offCoord
    rw [dif_pos (by decide)]
    simp only [Nat.zero_add]
    rfl

/-! ## Words below 1000 -/

open Idealize.ShloMosaic.StableHlo in
/-- A word below 1000 is non-negative as a signed word, so "count it from the table's end when negative" leaves it
    alone. -/
theorem id_norm (w : BitVec 32) (hw : w.toNat < 1000) :
    Scalar.select (IntOp.cmpi .slt w 0#32) (IntOp.addi w 1000#32) w = w := by
  have h0 : ¬ IntOp.cmpi .slt w 0#32 = 1#1 := by
    rw [Predicate.slt_iff_toNat (by omega) (by decide)]
    simp
  rw [eq_zero_of_ne_one h0, select_zero]

open Idealize.ShloMosaic.StableHlo in
/-- A word below 1000, read signed and clamped into [0, 999], is its own value. -/
theorem clamp_id (w : BitVec 32) (hw : w.toNat < 1000) : min w.toInt.toNat 999 = w.toNat := by
  rw [Predicate.toInt_eq_toNat_of_lt (by omega), Int.toNat_natCast]
  omega

/-! ## The embedding and the side-by-side layout at feature 32 f + e -/

/-- The embedding at node n, feature 32 f + e, when every id names a row: entry e of the row of table f that node n's
    id for field f names. -/
theorem embed_at (xc : IVec ⟨2, ![100000, 4]⟩ 32) (tab : FVec Ideal ⟨3, ![4, 1000, 32]⟩ .f32) (hx : ∀ i, (xc i).toNat < 1000)
    (n : Fin 100000) (f : Fin 4) (e : Fin 32) (j : Fin 128) (hj : j.val = 32 * f.val + e.val) :
    Cert.Gin.embed xc tab (ix2 n j) = tab (ix3 f ⟨(xc (ix2 n f)).toNat, hx _⟩ e) := by
  obtain rfl : f = ⟨j.val / 32, Nat.div_lt_of_lt_mul j.isLt⟩ := Fin.ext (by show f.val = j.val / 32; omega)
  obtain rfl : e = ⟨j.val % 32, Nat.mod_lt _ (by decide)⟩ := Fin.ext (by show e.val = j.val % 32; omega)
  unfold Cert.Gin.embed
  exact dif_pos (hx _)

/-- Four [100000, 32] pieces laid side by side, read at (n, 32 f + e): piece f at (n, e). The pieces before piece f take
    up 32 f columns. -/
theorem concat4_at {α : Type} (p0 p1 p2 p3 : S100000x32.Idx → α) (n : Fin 100000) (f : Fin 4) (e : Fin 32) (j : Fin 128)
    (hj : j.val = 32 * f.val + e.val) :
    concatenate S100000x128 1 [⟨S100000x32, p0⟩, ⟨S100000x32, p1⟩, ⟨S100000x32, p2⟩, ⟨S100000x32, p3⟩]
      concatenates_S100000x32_S100000x32_S100000x32_S100000x32_S100000x128_d1 (ix2 n j) = (![p0, p1, p2, p3] f) (ix2 n e) := by
  have hr : S100000x32.rank = S100000x128.rank := rfl
  have hoff : ∀ b : Fin S100000x32.rank, b.cast hr ≠ (1 : Fin S100000x128.rank) →
      ((ix2 n e : S100000x32.Idx) b).val = ((ix2 n j : S100000x128.Idx) (b.cast hr)).val := by
    intro b hb
    match b with
    | ⟨0, _⟩ => rfl
    | ⟨1, _⟩ => exact absurd rfl hb
  match f, hj with
  | ⟨0, _⟩, hj =>
    exact concatenate_apply_piece 1 _ _ (ix2 n j) 0 (by show 0 < 4; decide) S100000x32 p0 rfl hr 0 rfl (ix2 n e) hoff
      (by have hj' : j.val = 32 * 0 + e.val := hj; show 0 + e.val = j.val; omega)
  | ⟨1, _⟩, hj =>
    exact concatenate_apply_piece 1 _ _ (ix2 n j) 1 (by show 1 < 4; decide) S100000x32 p1 rfl hr 32 rfl (ix2 n e) hoff
      (by have hj' : j.val = 32 * 1 + e.val := hj; show 32 + e.val = j.val; omega)
  | ⟨2, _⟩, hj =>
    exact concatenate_apply_piece 1 _ _ (ix2 n j) 2 (by show 2 < 4; decide) S100000x32 p2 rfl hr 64 rfl (ix2 n e) hoff
      (by have hj' : j.val = 32 * 2 + e.val := hj; show 64 + e.val = j.val; omega)
  | ⟨3, _⟩, hj =>
    exact concatenate_apply_piece 1 _ _ (ix2 n j) 3 (by show 3 < 4; decide) S100000x32 p3 rfl hr 96 rfl (ix2 n e) hoff
      (by have hj' : j.val = 32 * 3 + e.val := hj; show 96 + e.val = j.val; omega)

/-! ## One field's lookup -/

/-- One field's lookup: a row lookup in a piece that is table f, at start indices that are the ids of field f, all below
    1000, reads entry (f, id(n, f), e) of the tables: the clamp does nothing to an id that already names a row. -/
theorem field_read (T : FVec Ideal S1000x32 .f32) (I : IVec S100000x1 32)
    (xc : IVec ⟨2, ![100000, 4]⟩ 32) (tab : FVec Ideal ⟨3, ![4, 1000, 32]⟩ .f32) (hx : ∀ i, (xc i).toNat < 1000) (f : Fin 4)
    (hT : ∀ (r : Fin 1000) (e : Fin 32), T (ix2 r e) = tab (ix3 f r e))
    (hI : ∀ n : Fin 100000, I (ix2 n 0) = xc (ix2 n f))
    (n : Fin 100000) (e : Fin 32) :
    Host.gather gather_S1000x32_S100000x1_S100000x32_1_0_n_n_0_1_132 T I (ix2 n e)
      = tab (ix3 f ⟨(xc (ix2 n f)).toNat, hx _⟩ e) := by
  have hrow : (⟨min (I (ix2 n 0)).toInt.toNat 999, by omega⟩ : Fin 1000) = ⟨(xc (ix2 n f)).toNat, hx _⟩ :=
    Fin.ext (by show min (I (ix2 n 0)).toInt.toNat 999 = (xc (ix2 n f)).toNat; rw [hI, clamp_id _ (hx _)])
  rw [gather_row, hT]
  show tab (ix3 f ⟨min (I (ix2 n 0)).toInt.toNat 999, _⟩ e) = _
  rw [hrow]

/-! ## The four fields: what the reference hands each lookup

For each field the reference cuts table f out of the tables as a [1000, 32] piece (a slice of one table, then dropping
the unit axis: row r, entry e sits at flat position 32 r + e on both sides) and prepares id column f (the column as a
vector, the "negative counts from the end" step, then back to a one-column matrix). -/

/-- Field 0's piece is table 0. -/
private theorem tab0 (x2 : FVec Ideal S4x1000x32 .f32) (r : Fin 1000) (e : Fin 32) :
    val_main_v1 (F := Ideal) x2 (ix2 r e) = x2 (ix3 0 r e) := by
  rw [val_main_v1_apply, val_main_v0_apply]
  congr 1
  funext a
  have hr := r.isLt
  have he := e.isLt
  match a with
  | ⟨0, _⟩ => exact Fin.ext (by show 0 = 0; rfl)
  | ⟨1, _⟩ => exact Fin.ext (by show (r.val * 32 + e.val) / 32 % 1000 = r.val; omega)
  | ⟨2, _⟩ => exact Fin.ext (by show (r.val * 32 + e.val) % 32 = e.val; omega)

/-- Field 0's start indices are the ids of field 0. -/
private theorem col0 (x0 : IVec S100000x4 32) (hx : ∀ i, (x0 i).toNat < 1000) (n : Fin 100000) :
    val_main_v9 (F := Ideal) x0 (ix2 n 0) = x0 (ix2 n 0) := by
  have h3 : val_main_v3 (F := Ideal) x0 (idx_main_v9 (ix2 n 0)) = x0 (ix2 n 0) := by
    rw [val_main_v3_apply, val_main_v2_apply]
    congr 1
    funext a
    match a with
    | ⟨0, _⟩ => exact Fin.ext (by show n.val / 1 = n.val; omega)
    | ⟨1, _⟩ => exact Fin.ext (by show 0 = 0; rfl)
  rw [val_main_v9_apply, val_main_v8_apply, val_main_v5_apply, val_main_v7_apply, val_main_v4_apply,
    val_main_c_apply, val_main_v6_apply, val_main_c_0_apply, h3]
  exact id_norm _ (hx _)

/-- Field 1's piece is table 1. -/
private theorem tab1 (x2 : FVec Ideal S4x1000x32 .f32) (r : Fin 1000) (e : Fin 32) :
    val_main_v12 (F := Ideal) x2 (ix2 r e) = x2 (ix3 1 r e) := by
  rw [val_main_v12_apply, val_main_v11_apply]
  congr 1
  funext a
  have hr := r.isLt
  have he := e.isLt
  match a with
  | ⟨0, _⟩ => exact Fin.ext (by show 1 + 0 = 1; rfl)
  | ⟨1, _⟩ => exact Fin.ext (by show (r.val * 32 + e.val) / 32 % 1000 = r.val; omega)
  | ⟨2, _⟩ => exact Fin.ext (by show (r.val * 32 + e.val) % 32 = e.val; omega)

/-- Field 1's start indices are the ids of field 1. -/
private theorem col1 (x0 : IVec S100000x4 32) (hx : ∀ i, (x0 i).toNat < 1000) (n : Fin 100000) :
    val_main_v20 (F := Ideal) x0 (ix2 n 0) = x0 (ix2 n 1) := by
  have h3 : val_main_v14 (F := Ideal) x0 (idx_main_v20 (ix2 n 0)) = x0 (ix2 n 1) := by
    rw [val_main_v14_apply, val_main_v13_apply]
    congr 1
    funext a
    match a with
    | ⟨0, _⟩ => exact Fin.ext (by show n.val / 1 = n.val; omega)
    | ⟨1, _⟩ => exact Fin.ext (by show 1 + 0 = 1; rfl)
  rw [val_main_v20_apply, val_main_v19_apply, val_main_v16_apply, val_main_v18_apply, val_main_v15_apply,
    val_main_c_1_apply, val_main_v17_apply, val_main_c_2_apply, h3]
  exact id_norm _ (hx _)

/-- Field 2's piece is table 2. -/
private theorem tab2 (x2 : FVec Ideal S4x1000x32 .f32) (r : Fin 1000) (e : Fin 32) :
    val_main_v23 (F := Ideal) x2 (ix2 r e) = x2 (ix3 2 r e) := by
  rw [val_main_v23_apply, val_main_v22_apply]
  congr 1
  funext a
  have hr := r.isLt
  have he := e.isLt
  match a with
  | ⟨0, _⟩ => exact Fin.ext (by show 2 + 0 = 2; rfl)
  | ⟨1, _⟩ => exact Fin.ext (by show (r.val * 32 + e.val) / 32 % 1000 = r.val; omega)
  | ⟨2, _⟩ => exact Fin.ext (by show (r.val * 32 + e.val) % 32 = e.val; omega)

/-- Field 2's start indices are the ids of field 2. -/
private theorem col2 (x0 : IVec S100000x4 32) (hx : ∀ i, (x0 i).toNat < 1000) (n : Fin 100000) :
    val_main_v31 (F := Ideal) x0 (ix2 n 0) = x0 (ix2 n 2) := by
  have h3 : val_main_v25 (F := Ideal) x0 (idx_main_v31 (ix2 n 0)) = x0 (ix2 n 2) := by
    rw [val_main_v25_apply, val_main_v24_apply]
    congr 1
    funext a
    match a with
    | ⟨0, _⟩ => exact Fin.ext (by show n.val / 1 = n.val; omega)
    | ⟨1, _⟩ => exact Fin.ext (by show 2 + 0 = 2; rfl)
  rw [val_main_v31_apply, val_main_v30_apply, val_main_v27_apply, val_main_v29_apply, val_main_v26_apply,
    val_main_c_3_apply, val_main_v28_apply, val_main_c_4_apply, h3]
  exact id_norm _ (hx _)

/-- Field 3's piece is table 3. -/
private theorem tab3 (x2 : FVec Ideal S4x1000x32 .f32) (r : Fin 1000) (e : Fin 32) :
    val_main_v34 (F := Ideal) x2 (ix2 r e) = x2 (ix3 3 r e) := by
  rw [val_main_v34_apply, val_main_v33_apply]
  congr 1
  funext a
  have hr := r.isLt
  have he := e.isLt
  match a with
  | ⟨0, _⟩ => exact Fin.ext (by show 3 + 0 = 3; rfl)
  | ⟨1, _⟩ => exact Fin.ext (by show (r.val * 32 + e.val) / 32 % 1000 = r.val; omega)
  | ⟨2, _⟩ => exact Fin.ext (by show (r.val * 32 + e.val) % 32 = e.val; omega)

/-- Field 3's start indices are the ids of field 3. -/
private theorem col3 (x0 : IVec S100000x4 32) (hx : ∀ i, (x0 i).toNat < 1000) (n : Fin 100000) :
    val_main_v42 (F := Ideal) x0 (ix2 n 0) = x0 (ix2 n 3) := by
  have h3 : val_main_v36 (F := Ideal) x0 (idx_main_v42 (ix2 n 0)) = x0 (ix2 n 3) := by
    rw [val_main_v36_apply, val_main_v35_apply]
    congr 1
    funext a
    match a with
    | ⟨0, _⟩ => exact Fin.ext (by show n.val / 1 = n.val; omega)
    | ⟨1, _⟩ => exact Fin.ext (by show 3 + 0 = 3; rfl)
  rw [val_main_v42_apply, val_main_v41_apply, val_main_v38_apply, val_main_v40_apply, val_main_v37_apply,
    val_main_c_5_apply, val_main_v39_apply, val_main_c_6_apply, h3]
  exact id_norm _ (hx _)

/-! ## The whole array -/

/-- With every id inside its table, the reference's four row lookups laid side by side are the embedding. -/
theorem embed_ref (xc : IVec ⟨2, ![100000, 4]⟩ 32) (tab : FVec Ideal ⟨3, ![4, 1000, 32]⟩ .f32) (hx : ∀ i, (xc i).toNat < 1000) :
    Cert.ReferenceIdeal.Read.val_main_v44 (F := Ideal) xc tab = Cert.Gin.embed xc tab := by
  funext i
  obtain ⟨n, j, rfl⟩ : ∃ (n : Fin 100000) (j : Fin 128), i = ix2 n j := ⟨i 0, i 1, eq_ix2 i⟩
  -- at feature 32 f + e both sides are entry (f, id(n, f), e) of the tables
  have key : ∀ (f : Fin 4) (e : Fin 32), j.val = 32 * f.val + e.val →
      val_main_v44 (F := Ideal) xc tab (ix2 n j) = Cert.Gin.embed xc tab (ix2 n j) := by
    intro f e hj
    unfold val_main_v44
    rw [concat4_at _ _ _ _ n f e j hj, embed_at xc tab hx n f e j hj]
    match f, hj with
    | ⟨0, _⟩, _ =>
      exact field_read (val_main_v1 (F := Ideal) tab) (val_main_v9 (F := Ideal) xc) xc tab hx 0 (tab0 tab) (col0 xc hx) n e
    | ⟨1, _⟩, _ =>
      exact field_read (val_main_v12 (F := Ideal) tab) (val_main_v20 (F := Ideal) xc) xc tab hx 1 (tab1 tab) (col1 xc hx) n e
    | ⟨2, _⟩, _ =>
      exact field_read (val_main_v23 (F := Ideal) tab) (val_main_v31 (F := Ideal) xc) xc tab hx 2 (tab2 tab) (col2 xc hx) n e
    | ⟨3, _⟩, _ =>
      exact field_read (val_main_v34 (F := Ideal) tab) (val_main_v42 (F := Ideal) xc) xc tab hx 3 (tab3 tab) (col3 xc hx) n e
  have hjlt := j.isLt
  exact key ⟨j.val / 32, by omega⟩ ⟨j.val % 32, by omega⟩ (by show j.val = 32 * (j.val / 32) + j.val % 32; omega)

end Cert.Gin.EmbedRef

end
-- ==== Proof.PreRange.lean ====
import proofs.«424596_j32280974197455_1_alg».proof.Pre_finite_inputs
import proofs.«424596_j32280974197455_1_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.Gin.PreRange

open Idealize.ShloMosaic Idealize.ShloMosaic.ValueIdx Cert.Pre_finite_inputs

/-- A scalar shape has a single (empty) index. -/
private instance : Subsingleton S_.Idx := ⟨fun a b => funext fun d => d.elim0⟩

/-- A signed word that lies in [0, 1000) has an unsigned value below 1000: a nonnegative signed reading means the
    top bit is clear, so both readings agree. -/
private theorem toNat_lt_of_signed (w : BitVec 32) (h0 : IntOp.cmpi .sge w 0#32 = 1#1) (h1 : IntOp.cmpi .slt w 1000#32 = 1#1) :
    w.toNat < 1000 := by
  have e0 : (0#32 : BitVec 32).toInt ≤ w.toInt := IntOp.cmpi_sge.1 h0
  have e1 : w.toInt < (1000#32 : BitVec 32).toInt := IntOp.cmpi_slt.1 h1
  have z0 : (0#32 : BitVec 32).toInt = 0 := by decide
  have z1 : (1000#32 : BitVec 32).toInt = 1000 := by decide
  rw [z0] at e0
  rw [z1] at e1
  have hw := w.isLt
  rw [BitVec.toInt_eq_toNat_cond] at e0 e1
  split at e0 <;> omega

/-- The printed predicate is a conjunction whose last component is the "all entries" reduction of the range test on
    the ids: the conjunction of "id ≥ 0" and "id < 1000", both signed, entry by entry. -/
private theorem fn_last {F : FTy → Type} [FloatOps F] [Cert.Pre_finite_inputs.Facts]
    (a0 : IVec S100000x4 32) (a1 : IVec S2x1600000 32) (a2 : FVec F S4x1000x32 .f32) (a3 : FVec F S128x128 .f32) (a4 : FVec F S128 .f32)
    (a5 : FVec F S128x128 .f32) (a6 : FVec F S128 .f32) (a7 : FVec F S128x64 .f32) (a8 : FVec F S64 .f32) (a9 : FVec F S64x64 .f32)
    (a10 : FVec F S64 .f32) :
    ∃ X : IVec S_ 1, Cert.Pre_finite_inputs.fn (F := F) a0 a1 a2 a3 a4 a5 a6 a7 a8 a9 a10 =
      andi X (Host.reduce IntOp.andi
        (andi (cmpi .sge a0 (broadcastInDim S100000x4 ![] Facts.bcast_S_S100000x4 (constantI S_ 32 0#32)))
              (cmpi .slt a0 (broadcastInDim S100000x4 ![] Facts.bcast_S_S100000x4 (constantI S_ 32 1000#32))))
        (constantI S_ 1 1#1) Facts.reducesTo_S100000x4_S_d0_1 Facts.h_S_) :=
  ⟨_, rfl⟩

/-- The precondition's last conjunct read back: every categorical id lies in [0, 1000) as a signed word, so its
    unsigned value is below 1000. -/
theorem range {F : FTy → Type} [FloatOps F] [Cert.Pre_finite_inputs.Facts]
    (a0 : IVec S100000x4 32) (a1 : IVec S2x1600000 32) (a2 : FVec F S4x1000x32 .f32) (a3 : FVec F S128x128 .f32) (a4 : FVec F S128 .f32)
    (a5 : FVec F S128x128 .f32) (a6 : FVec F S128 .f32) (a7 : FVec F S128x64 .f32) (a8 : FVec F S64 .f32) (a9 : FVec F S64x64 .f32)
    (a10 : FVec F S64 .f32)
    (h : Cert.Pre_finite_inputs.fn (F := F) a0 a1 a2 a3 a4 a5 a6 a7 a8 a9 a10 = fun _ => 1#1) :
    ∀ i, (a0 i).toNat < 1000 := by
  intro i
  obtain ⟨X, hX⟩ := fn_last (F := F) a0 a1 a2 a3 a4 a5 a6 a7 a8 a9 a10
  rw [hX] at h
  -- the whole conjunction is 1 at the one scalar index, so its last component is
  have h0 : IntOp.andi (X ix0) _ = 1#1 := congrFun h ix0
  have hall := (IntOp.andi_eq_one.1 h0).2
  -- an "all" that is 1 had a 1 at every entry: read it at i
  have hi := Host.reduce_andi_all _ _ _ _ ix0 hall i
  -- entry i is the conjunction of the two signed compares of the id with the broadcast constants 0 and 1000
  have hi' : IntOp.andi (IntOp.cmpi .sge (a0 i) 0#32) (IntOp.cmpi .slt (a0 i) 1000#32) = 1#1 := hi
  obtain ⟨hge, hlt⟩ := IntOp.andi_eq_one.1 hi'
  exact toNat_lt_of_signed (a0 i) hge hlt

end Cert.Gin.PreRange

end
-- ==== Proof.lean ====
/-
  The certificate of a categorical graph encoder: four embedding lookups laid side by side, then two graph
  convolutions, each adding to a node's features the sum of its in-neighbours' and applying a two-layer perceptron.

  The kernel program looks a row up by multiplying a one-hot row (the id compared with 0 … 1023) into the field's
  table padded with zero rows to 1024; with every id in [0, 1000) that product is the named row, which is what the
  reference's lookup returns there.  The neighbour sums are the same host computation in both programs and are
  never opened.  Each perceptron is computed by the kernel on blocks of 4000 nodes with the products accumulated
  from zero, by the reference on all nodes at once: entry by entry both are the same sums over the hidden width,
  and a change of float format is the identity on the extended reals.  No law beyond 0 · x = 0, 1 · x = x and
  reindexing of finite sums is used, so finiteness of the float inputs is never opened; the range of the ids is.
-/
import proofs.«424596_j32280974197455_1_alg».proof.Defs
import proofs.«424596_j32280974197455_1_alg».proof.Proof.Gen.Kernel
import proofs.«424596_j32280974197455_1_alg».proof.Proof.Gen.Kernel.Skeleton
import proofs.«424596_j32280974197455_1_alg».proof.Proof.Gen.Kernel.Launch
import proofs.«424596_j32280974197455_1_alg».proof.Proof.Gen.Kernel.Points
import proofs.«424596_j32280974197455_1_alg».proof.Proof.Gen.Kernel.Frame
import proofs.«424596_j32280974197455_1_alg».proof.Proof.Gen.KernelIdeal
import proofs.«424596_j32280974197455_1_alg».proof.Proof.Gen.KernelIdeal.Skeleton
import proofs.«424596_j32280974197455_1_alg».proof.Proof.Gen.KernelIdeal.Launch
import proofs.«424596_j32280974197455_1_alg».proof.Proof.Gen.KernelIdeal.Points
import proofs.«424596_j32280974197455_1_alg».proof.Proof.Gen.KernelIdeal.Frame
import proofs.«424596_j32280974197455_1_alg».proof.Proof.Gen.ReferenceIdeal
import proofs.«424596_j32280974197455_1_alg».proof.Proof.Gen.Pre_finite_inputs
import proofs.«424596_j32280974197455_1_alg».proof.Proof.KRun
import proofs.«424596_j32280974197455_1_alg».proof.Proof.KValue
import proofs.«424596_j32280974197455_1_alg».proof.Proof.RefValue
import proofs.«424596_j32280974197455_1_alg».proof.Proof.EmbedPad
import proofs.«424596_j32280974197455_1_alg».proof.Proof.EmbedRef
import proofs.«424596_j32280974197455_1_alg».proof.Proof.PreRange
import Idealize.ShloMosaic.Adequacy
import Idealize.ShloMosaic.Init

set_option maxRecDepth 16384

noncomputable section

namespace Cert.Proof

open Idealize.ShloMosaic Idealize.SL.Sem

/-- The neighbour sum is one function, whichever program's shape records spell it. -/
theorem agg_eq : Cert.KernelIdeal.HostRead.agg = Cert.ReferenceIdeal.RefValue.agg := rfl

section
variable [hK : Cert.Kernel.Facts] [hKI : Cert.KernelIdeal.Facts] [hRI : Cert.ReferenceIdeal.Facts] [hPre : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at one function of the arguments: the kernel's by its three regions'
    values chained through the host stretches, the reference's by its run read one operation at a time; the two
    functions agree once the embedding is identified under the ids' range. -/
theorem algebraic : Cert.algebraic_KernelIdeal_ReferenceIdeal := by
  intro m ρ m' ρ' hpre hagree
  refine ⟨fun c => Cert.KernelIdeal.KValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.KValue.W7_result m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    have hx := Cert.Gin.PreRange.range _ _ _ _ _ _ _ _ _ _ _ (hpre c)
    rw [Cert.ReferenceIdeal.RefValue.res_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2]
    beta_reduce
    unfold Cert.ReferenceIdeal.RefValue.result Cert.KernelIdeal.KValue.result
    rw [Cert.Gin.EmbedRef.embed_ref _ _ hx, Cert.Gin.EmbedPad.embed_padTab _ _ hx, agg_eq]

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
